-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x4096x1024 .f32) (main_arg1 : FVec F S3072x1024 .f32) (main_arg2 : FVec F S3072 .f32) (main_arg3 : FVec F S1024x1024 .f32) (main_arg4 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x4096x1024 : Shape := ⟨3, ![8, 4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S32768x1024 : Shape := ⟨2, ![32768, 1024]⟩
abbrev S1x3072 : Shape := ⟨2, ![1, 3072]⟩
abbrev S256x1024 : Shape := ⟨2, ![256, 1024]⟩
abbrev S256x3072 : Shape := ⟨2, ![256, 3072]⟩
abbrev S256x16x64 : Shape := ⟨3, ![256, 16, 64]⟩
abbrev S256x16x16 : Shape := ⟨3, ![256, 16, 16]⟩
abbrev S256x16 : Shape := ⟨2, ![256, 16]⟩
abbrev S256x16x1 : Shape := ⟨3, ![256, 16, 1]⟩
abbrev S8x4096x16x64 : Shape := ⟨4, ![8, 4096, 16, 64]⟩
abbrev S8x16x4096x64 : Shape := ⟨4, ![8, 16, 4096, 64]⟩
abbrev S1x1024 : Shape := ⟨2, ![1, 1024]⟩

abbrev nBuf : Space → Nat
  | .hbm => 15
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S32768x1024, .f32⟩
  | .hbm, ⟨6, _⟩ => ⟨S1x3072, .f32⟩
  | .hbm, ⟨7, _⟩ => ⟨S32768x1024, .bf16⟩
  | .hbm, ⟨8, _⟩ => ⟨S8x4096x16x64, .bf16⟩
  | .hbm, ⟨9, _⟩ => ⟨S8x16x4096x64, .bf16⟩
  | .hbm, ⟨10, _⟩ => ⟨S8x4096x1024, .bf16⟩
  | .hbm, ⟨11, _⟩ => ⟨S32768x1024, .bf16⟩
  | .hbm, ⟨12, _⟩ => ⟨S1x1024, .f32⟩
  | .hbm, ⟨13, _⟩ => ⟨S32768x1024, .f32⟩
  | .hbm, ⟨14, _⟩ => ⟨S8x4096x1024, .f32⟩
  | .local _ .vmem, ⟨0, _⟩ => ⟨S256x1024, .f32⟩
  | .local _ .vmem, ⟨1, _⟩ => ⟨S256x1024, .f32⟩
  | .local _ .vmem, ⟨2, _⟩ => ⟨S3072x1024, .f32⟩
  | .local _ .vmem, ⟨3, _⟩ => ⟨S1x3072, .f32⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S8x4096x1024_S32768x1024 : S8x4096x1024.ShapeCasts S32768x1024
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  shapeCasts_S256x1024_S256x16x64 : S256x1024.ShapeCasts S256x16x64
  slices_S256x3072_o0_1024_S256x1024 : S256x3072.Slices ![0, 1024] S256x1024
  slices_S256x3072_o0_2048_S256x1024 : S256x3072.Slices ![0, 2048] S256x1024
  reduces_S256x16x16_S256x16 : S256x16x16.Reduces [2] S256x16
  shapeCasts_S256x16_S256x16x1 : S256x16.ShapeCasts S256x16x1
  broadcasts_S256x16x1_S256x16x16 : S256x16x1.Broadcasts S256x16x16
  shapeCasts_S256x16x64_S256x1024 : S256x16x64.ShapeCasts S256x1024
  packedbf16_S256x1024_S256x1024_0_0 : (Rect.unit (s := S256x1024) ![0, 0] S256x1024.size inb_S256x1024_S256x1024_0_0).PackedRows (EltTy.packing .bf16)
  shapeCasts_S32768x1024_S8x4096x16x64 : S32768x1024.ShapeCasts S8x4096x16x64
  transposes_S8x4096x16x64_S8x16x4096x64_0_2_1_3 : S8x4096x16x64.Transposes [0, 2, 1, 3] S8x16x4096x64
  shapeCasts_S8x16x4096x64_S8x4096x1024 : S8x16x4096x64.ShapeCasts S8x4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S8x4096x1024 : S32768x1024.ShapeCasts S8x4096x1024
  dot_S256x1024_S3072x1024_S256x3072_1_1_0_0_n_n_wf : DotDims.WF S256x1024 S3072x1024 S256x3072 [1] [1] [0] [0] [] []
  dot_S256x16x64_S256x16x64_S256x16x16_2_2_1_1_0_0_wf : DotDims.WF S256x16x64 S256x16x64 S256x16x16 [2] [2] [1] [1] [0] [0]
  dot_S256x16x16_S256x16x64_S256x16x64_2_1_1_2_0_0_wf : DotDims.WF S256x16x16 S256x16x64 S256x16x64 [2] [1] [1] [2] [0] [0]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .f32 = 32 ∨ (Rect.block (s := S3072x1024) S3072x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S32768x1024.size a
  hwx0_3 : ∀ i : grid0.Coords, EltTy.bits .bf16 = 32 ∨ (Rect.block (s := S32768x1024) S256x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .bf16 = 32 ∨ (Rect.block (s := S32768x1024) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S32768x1024.size a
  hwx1_3 : ∀ i : grid1.Coords, EltTy.bits .f32 = 32 ∨ (Rect.block (s := S32768x1024) S1024x1024.size (cc1_transform_3 i) (hinb1_3 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S256x16x64_S256x16x64_S256x16x16_2_2_1_1_0_0 : DotDims S256x16x64 S256x16x64 S256x16x16 where
  lhsContracting := [2]
  rhsContracting := [2]
  lhsNonContracting := [1]
  rhsNonContracting := [1]
  lhsBatch := [0]
  rhsBatch := [0]
  wf := dot_S256x16x64_S256x16x64_S256x16x16_2_2_1_1_0_0_wf
def dot_S256x16x16_S256x16x64_S256x16x64_2_1_1_2_0_0 : DotDims S256x16x16 S256x16x64 S256x16x64 where
  lhsContracting := [2]
  rhsContracting := [1]
  lhsNonContracting := [1]
  rhsNonContracting := [2]
  lhsBatch := [0]
  rhsBatch := [0]
  wf := dot_S256x16x16_S256x16x64_S256x16x64_2_1_1_2_0_0_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8x4096x3072 : Shape := ⟨3, ![8, 4096, 3072]⟩
abbrev S1x1x3072 : Shape := ⟨3, ![1, 1, 3072]⟩
abbrev S8x4096x3x16x64 : Shape := ⟨5, ![8, 4096, 3, 16, 64]⟩
abbrev S8x4096x1x16x64 : Shape := ⟨5, ![8, 4096, 1, 16, 64]⟩
abbrev S8x4096x16x64 : Shape := ⟨4, ![8, 4096, 16, 64]⟩
abbrev S8x4096x16x16 : Shape := ⟨4, ![8, 4096, 16, 16]⟩
abbrev S_ : Shape := ⟨0, ![]⟩
abbrev S8x4096x16 : Shape := ⟨3, ![8, 4096, 16]⟩
abbrev S8x4096x16x1 : Shape := ⟨4, ![8, 4096, 16, 1]⟩
abbrev S8x16x4096x64 : Shape := ⟨4, ![8, 16, 4096, 64]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8x4096x3072, .f32⟩
  | .hbm, ⟨6, _⟩ => ⟨S1x1x3072, .f32⟩
  | .hbm, ⟨7, _⟩ => ⟨S8x4096x3072, .f32⟩
  | .hbm, ⟨8, _⟩ => ⟨S8x4096x3072, .f32⟩
  | .hbm, ⟨9, _⟩ => ⟨S8x4096x3x16x64, .f32⟩
  | .hbm, ⟨10, _⟩ => ⟨S8x4096x1x16x64, .f32⟩
  | .hbm, ⟨11, _⟩ => ⟨S8x4096x16x64, .f32⟩
  | .hbm, ⟨12, _⟩ => ⟨S8x4096x1x16x64, .f32⟩
  | .hbm, ⟨13, _⟩ => ⟨S8x4096x16x64, .f32⟩
  | .hbm, ⟨14, _⟩ => ⟨S8x4096x1x16x64, .f32⟩
  | .hbm, ⟨15, _⟩ => ⟨S8x4096x16x64, .f32⟩
  | .hbm, ⟨16, _⟩ => ⟨S8x4096x16x16, .f32⟩
  | .hbm, ⟨17, _⟩ => ⟨S_, .f32⟩
  | .hbm, ⟨18, _⟩ => ⟨S8x4096x16x16, .f32⟩
  | .hbm, ⟨19, _⟩ => ⟨S8x4096x16x16, .f32⟩
  | .hbm, ⟨20, _⟩ => ⟨S_, .f32⟩
  | .hbm, ⟨21, _⟩ => ⟨S8x4096x16, .f32⟩
  | .hbm, ⟨22, _⟩ => ⟨S_, .f32⟩
  | .hbm, ⟨23, _⟩ => ⟨S8x4096x16, .f32⟩
  | .hbm, ⟨24, _⟩ => ⟨S8x4096x16, .f32⟩
  | .hbm, ⟨25, _⟩ => ⟨S8x4096x16x1, .f32⟩
  | .hbm, ⟨26, _⟩ => ⟨S8x4096x16x16, .f32⟩
  | .hbm, ⟨27, _⟩ => ⟨S8x4096x16x16, .f32⟩
  | .hbm, ⟨28, _⟩ => ⟨S8x4096x16x16, .f32⟩
  | .hbm, ⟨29, _⟩ => ⟨S_, .f32⟩
  | .hbm, ⟨30, _⟩ => ⟨S8x4096x16, .f32⟩
  | .hbm, ⟨31, _⟩ => ⟨S8x4096x16x1, .f32⟩
  | .hbm, ⟨32, _⟩ => ⟨S8x4096x16x16, .f32⟩
  | .hbm, ⟨33, _⟩ => ⟨S8x4096x16x16, .f32⟩
  | .hbm, ⟨34, _⟩ => ⟨S8x4096x16x64, .f32⟩
  | .hbm, ⟨35, _⟩ => ⟨S8x16x4096x64, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x4096x3072_0_1_2 : S1x1x3072.BroadcastsInDim S8x4096x3072 (![0, 1, 2] : Fin 3 → Fin S8x4096x3072.rank)
  shapeCasts_S8x4096x3072_S8x4096x3x16x64 : S8x4096x3072.ShapeCasts S8x4096x3x16x64
  slices_S8x4096x3x16x64_S8x4096x1x16x64_0_0_0_0_0 : S8x4096x3x16x64.Slices ![0, 0, 0, 0, 0] S8x4096x1x16x64
  shapeCasts_S8x4096x1x16x64_S8x4096x16x64 : S8x4096x1x16x64.ShapeCasts S8x4096x16x64
  slices_S8x4096x3x16x64_S8x4096x1x16x64_0_0_1_0_0 : S8x4096x3x16x64.Slices ![0, 0, 1, 0, 0] S8x4096x1x16x64
  slices_S8x4096x3x16x64_S8x4096x1x16x64_0_0_2_0_0 : S8x4096x3x16x64.Slices ![0, 0, 2, 0, 0] S8x4096x1x16x64
  bcast_S_S8x4096x16x16 : S_.BroadcastsInDim S8x4096x16x16 (![] : Fin 0 → Fin S8x4096x16x16.rank)
  reducesTo_S8x4096x16x16_S8x4096x16_d3 : S8x4096x16x16.ReducesTo [3] S8x4096x16
  h_S_ : 0 < S_.numel
  bcast_S_S8x4096x16 : S_.BroadcastsInDim S8x4096x16 (![] : Fin 0 → Fin S8x4096x16.rank)
  bcast_S8x4096x16_S8x4096x16x1_0_1_2 : S8x4096x16.BroadcastsInDim S8x4096x16x1 (![0, 1, 2] : Fin 3 → Fin S8x4096x16x1.rank)
  bcast_S8x4096x16x1_S8x4096x16x16_0_1_2_3 : S8x4096x16x1.BroadcastsInDim S8x4096x16x16 (![0, 1, 2, 3] : Fin 4 → Fin S8x4096x16x16.rank)
  transposes_S8x4096x16x64_S8x16x4096x64_0_2_1_3 : S8x4096x16x64.Transposes [0, 2, 1, 3] S8x16x4096x64
  shapeCasts_S8x16x4096x64_S8x4096x1024 : S8x16x4096x64.ShapeCasts S8x4096x1024
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S3072x1024_S8x4096x3072_2_1_01_0_n_n_wf : DotDims.WF S8x4096x1024 S3072x1024 S8x4096x3072 [2] [1] [0, 1] [0] [] []
  dot_S8x4096x16x64_S8x4096x16x64_S8x4096x16x16_3_3_2_2_01_01_wf : DotDims.WF S8x4096x16x64 S8x4096x16x64 S8x4096x16x16 [3] [3] [2] [2] [0, 1] [0, 1]
  dot_S8x4096x16x16_S8x4096x16x64_S8x4096x16x64_3_2_2_3_01_01_wf : DotDims.WF S8x4096x16x16 S8x4096x16x64 S8x4096x16x64 [3] [2] [2] [3] [0, 1] [0, 1]
  dot_S8x4096x1024_S1024x1024_S8x4096x1024_2_1_01_0_n_n_wf : DotDims.WF S8x4096x1024 S1024x1024 S8x4096x1024 [2] [1] [0, 1] [0] [] []

variable [Facts₀]

def dot_S8x4096x1024_S3072x1024_S8x4096x3072_2_1_01_0_n_n : DotDims S8x4096x1024 S3072x1024 S8x4096x3072 where
  lhsContracting := [2]
  rhsContracting := [1]
  lhsNonContracting := [0, 1]
  rhsNonContracting := [0]
  lhsBatch := []
  rhsBatch := []
  wf := dot_S8x4096x1024_S3072x1024_S8x4096x3072_2_1_01_0_n_n_wf
def dot_S8x4096x16x64_S8x4096x16x64_S8x4096x16x16_3_3_2_2_01_01 : DotDims S8x4096x16x64 S8x4096x16x64 S8x4096x16x16 where
  lhsContracting := [3]
  rhsContracting := [3]
  lhsNonContracting := [2]
  rhsNonContracting := [2]
  lhsBatch := [0, 1]
  rhsBatch := [0, 1]
  wf := dot_S8x4096x16x64_S8x4096x16x64_S8x4096x16x16_3_3_2_2_01_01_wf
def dot_S8x4096x16x16_S8x4096x16x64_S8x4096x16x64_3_2_2_3_01_01 : DotDims S8x4096x16x16 S8x4096x16x64 S8x4096x16x64 where
  lhsContracting := [3]
  rhsContracting := [2]
  lhsNonContracting := [2]
  rhsNonContracting := [3]
  lhsBatch := [0, 1]
  rhsBatch := [0, 1]
  wf := dot_S8x4096x16x16_S8x4096x16x64_S8x4096x16x64_3_2_2_3_01_01_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.HeadSpec.lean ====
/-
  Attention over the head axis of one token, as a function on the extended reals.

  A token's fused row `u` has 3072 entries: queries, keys and values, each 16 heads of 64 entries, laid end to end.
  For heads `h`, `g` the score is the inner product of query head `h` with key head `g`, scaled by 1/32; a head's
  scores are shifted by their maximum, exponentiated, and divided by their sum (`soft`); the result for head `h` is that
  weighting of the value heads. The fused row itself is an affine image of the token: `lin`.
-/
import Idealize.ShloMosaic.PureOps.Ideal
import Idealize.ShloMosaic.PureOps.Ideal.Laws
import Idealize.ShloMosaic.Lib.ValueIdx

noncomputable section

namespace Cert.HeadAttn

open Idealize.ShloMosaic

/-- The scale 1/32, as the binary32 word both programs carry. -/
abbrev scl : EReal := Ideal.ofBits .f32 0x3D000000#32

/-- The word of minus infinity the running maximum starts from. -/
abbrev ninf : EReal := Ideal.ofBits .f32 0xFF800000#32

/-- An affine map read at one output: the row `x` against row `o` of the weights, plus the bias at `o`. -/
def lin {K N : Nat} (x : Fin K → EReal) (w : Fin N → Fin K → EReal) (b : Fin N → EReal) (o : Fin N) : EReal :=
  (∑ c : Fin K, x c * w o c) + b o

/-- Entry `d` of head `h` of the third of the fused row that starts at `s`. -/
def part (s : Nat) (hs : s + 1024 ≤ 3072) (u : Fin 3072 → EReal) (h : Fin 16) (d : Fin 64) : EReal :=
  u ⟨s + (h.val * 64 + d.val), by have := h.isLt; have := d.isLt; omega⟩

/-- Query head `h`. -/
abbrev qry (u : Fin 3072 → EReal) : Fin 16 → Fin 64 → EReal := part 0 (by omega) u
/-- Key head `g`. -/
abbrev key (u : Fin 3072 → EReal) : Fin 16 → Fin 64 → EReal := part 1024 (by omega) u
/-- Value head `g`. -/
abbrev vlu (u : Fin 3072 → EReal) : Fin 16 → Fin 64 → EReal := part 2048 (by omega) u

/-- The scaled score of query head `h` against key head `g`. -/
def logit (u : Fin 3072 → EReal) (h g : Fin 16) : EReal := (∑ d : Fin 64, qry u h d * key u g d) * scl

/-- The normalised exponentials of a row of 16 scores: each score less the row's maximum (taken from minus infinity,
    and once more against it), exponentiated, over the sum of the row's exponentials. -/
def soft (l : Fin 16 → EReal) (g : Fin 16) : EReal :=
  Ideal.div (Ideal.exp (l g - max ninf ((Finset.univ : Finset (Fin 16)).fold max ninf l)))
    (∑ g' : Fin 16, Ideal.exp (l g' - max ninf ((Finset.univ : Finset (Fin 16)).fold max ninf l)))

/-- The weight head `h` gives head `g`. -/
def prob (u : Fin 3072 → EReal) (h g : Fin 16) : EReal := soft (fun g' => logit u h g') g

/-- The attention output of head `h` at entry `d`. -/
def mix (u : Fin 3072 → EReal) (h : Fin 16) (d : Fin 64) : EReal := ∑ g : Fin 16, prob u h g * vlu u g d

end Cert.HeadAttn

end
-- ==== Proof.KArr.lean ====
/-
  What each kernel leaves in its output array, as one function of the arrays it reads. The first kernel's array holds,
  at row `r` and column `j`, the attention output of head `j / 64` at entry `j % 64` of token `r`'s fused row; the second
  kernel's array holds row `r` of its input against weight row `o` plus the bias at `o`.
-/
import proofs.«169579_j23837068493215_1_alg».proof.Proof.HeadSpec
import proofs.«169579_j23837068493215_1_alg».proof.Proof.Gen.KernelIdeal
import Idealize.ShloMosaic.PureOps.Ideal
import Idealize.ShloMosaic.Lib.ValueIdx

noncomputable section

namespace Cert.KernelIdeal.Arr

open Idealize.ShloMosaic Idealize.ShloMosaic.ValueIdx Cert.KernelIdeal Cert.HeadAttn

/-- The first kernel's output array. -/
def attnArr (X : FVec Ideal S32768x1024 .f32) (W : FVec Ideal S3072x1024 .f32) (B : FVec Ideal S1x3072 .f32) :
    FVec Ideal S32768x1024 .bf16 := fun i =>
  mix (fun o : Fin 3072 => lin (fun c : Fin 1024 => X (ix2 (⟨(i 0).val, (i 0).isLt⟩ : Fin 32768) c))
      (fun (o' : Fin 3072) (c : Fin 1024) => W (ix2 o' c)) (fun o' : Fin 3072 => B (ix2 (0 : Fin 1) o')) o)
    ⟨(i 1).val / 64, by have h : (i 1).val < 1024 := (i 1).isLt; omega⟩ ⟨(i 1).val % 64, Nat.mod_lt _ (by decide)⟩

/-- The second kernel's output array. -/
def projArr (A : FVec Ideal S32768x1024 .bf16) (W : FVec Ideal S1024x1024 .f32) (B : FVec Ideal S1x1024 .f32) :
    FVec Ideal S32768x1024 .f32 := fun i =>
  lin (fun c : Fin 1024 => A (ix2 (⟨(i 0).val, (i 0).isLt⟩ : Fin 32768) c))
    (fun (o' : Fin 1024) (c : Fin 1024) => W (ix2 o' c)) (fun o' : Fin 1024 => B (ix2 (0 : Fin 1) o'))
    (⟨(i 1).val, (i 1).isLt⟩ : Fin 1024)

end Cert.KernelIdeal.Arr

end
-- ==== Proof.KGlue.lean ====
/-
  The kernel program as one function of its five argument arrays. Between the two kernels the host views the
  attention output as 8 by 4096 tokens of 16 heads of 64, moves the heads in front of the tokens, and lays the array
  out flat again as 32768 rows of 1024 (`relay`). The tokens enter the first kernel as 32768 rows; the biases enter
  the kernels as one-row matrices; the result leaves as 8 by 4096 by 1024.
-/
import proofs.«169579_j23837068493215_1_alg».proof.Proof.KArr

noncomputable section

namespace Cert.KernelIdeal.Arr

open Idealize.ShloMosaic Idealize.ShloMosaic.ValueIdx Cert.KernelIdeal Cert.KernelIdeal.Gen Cert.HeadAttn

/-- The host's re-layout between the kernels. -/
def relay (A : FVec Ideal S32768x1024 .bf16) : FVec Ideal S32768x1024 .bf16 :=
  shapeCast S32768x1024
    (shapeCast S8x4096x1024
      (transpose S8x16x4096x64 [0, 2, 1, 3] (shapeCast S8x4096x16x64 A shapeCasts_S32768x1024_S8x4096x16x64)
        transposes_S8x4096x16x64_S8x16x4096x64_0_2_1_3)
      shapeCasts_S8x16x4096x64_S8x4096x1024)
    shapeCasts_S8x4096x1024_S32768x1024

/-- What @main returns, as a function of its arguments. -/
def result (a0 : FVec Ideal S8x4096x1024 .f32) (a1 : FVec Ideal S3072x1024 .f32) (a2 : FVec Ideal S3072 .f32)
    (a3 : FVec Ideal S1024x1024 .f32) (a4 : FVec Ideal S1024 .f32) : FVec Ideal S8x4096x1024 .f32 :=
  shapeCast S8x4096x1024
    (projArr
      (relay (attnArr (shapeCast S32768x1024 a0 shapeCasts_S8x4096x1024_S32768x1024) a1 (shapeCast S1x3072 a2 shapeCasts_S3072_S1x3072)))
      a3 (shapeCast S1x1024 a4 shapeCasts_S1024_S1x1024))
    shapeCasts_S32768x1024_S8x4096x1024

end Cert.KernelIdeal.Arr

end
-- ==== Proof.KStages.lean ====
/-
  The first kernel's body, cut into its stages. One block is 256 tokens. The fused projection `fused` of the block is
  the tokens against the 3072 weight rows plus the bias row; `headsQ`, `headsK`, `headsV` are its three thirds, each
  viewed as 16 heads of 64; `scores` is the scaled inner product of query heads with key heads; `weights` the
  normalised exponentials of the scores along the last axis; `blend` the weighting of the value heads; `merge` lays
  the 16 heads of 64 side by side again. The body's stored value is the composition of these (`pay0_eq`).
  The second kernel's body is one affine map (`pay1_eq`).
-/
import proofs.«169579_j23837068493215_1_alg».proof.Proof.Gen.KernelIdeal.Skeleton
import Idealize.ShloMosaic.PureOps.Ideal

noncomputable section

namespace Cert.KernelIdeal.Body

open Idealize.ShloMosaic Cert.KernelIdeal Cert.KernelIdeal.Gen

/-- The fused projection of a block of tokens: every token against every weight row, plus the bias row. -/
def fused (x0 : FVec Ideal S256x1024 .f32) (x1 : FVec Ideal S3072x1024 .f32) (x2 : FVec Ideal S1x3072 .f32) :
    FVec Ideal S256x3072 .f32 :=
  addf (matmul dot_S256x1024_S3072x1024_S256x3072_1_1_0_0_n_n none
      (truncf .bf16 (shapeCast S256x1024 x0 shapeCasts_S256x1024_S256x1024) bitsLt_bf16_f32)
      (truncf .bf16 x1 bitsLt_bf16_f32) (constant S256x3072 .f32 0x00000000#32))
    (broadcastTo S256x3072 (shapeCast S1x3072 x2 shapeCasts_S1x3072_S1x3072) broadcasts_S1x3072_S256x3072)

/-- The query third of the fused rows, as 16 heads of 64. -/
def headsQ (u : FVec Ideal S256x3072 .f32) : FVec Ideal S256x16x64 .f32 :=
  shapeCast S256x16x64 (extractStridedSlice S256x1024 ![0, 0] u slices_S256x3072_o0_0_S256x1024) shapeCasts_S256x1024_S256x16x64

/-- The key third. -/
def headsK (u : FVec Ideal S256x3072 .f32) : FVec Ideal S256x16x64 .f32 :=
  shapeCast S256x16x64 (extractStridedSlice S256x1024 ![0, 1024] u slices_S256x3072_o0_1024_S256x1024) shapeCasts_S256x1024_S256x16x64

/-- The value third. -/
def headsV (u : FVec Ideal S256x3072 .f32) : FVec Ideal S256x16x64 .f32 :=
  shapeCast S256x16x64 (extractStridedSlice S256x1024 ![0, 2048] u slices_S256x3072_o0_2048_S256x1024) shapeCasts_S256x1024_S256x16x64

/-- Scaled scores: query head against key head, token by token. -/
def scores (q k : FVec Ideal S256x16x64 .f32) : FVec Ideal S256x16x16 .f32 :=
  mulf (matmul dot_S256x16x64_S256x16x64_S256x16x16_2_2_1_1_0_0 none q k (constant S256x16x16 .f32 0x00000000#32))
    (broadcast S256x16x16 (Scalar.ofBits .f32 0x3D000000#32))

/-- The scores' maximum along the last axis, taken from minus infinity and once more against it. -/
def rowTop (l : FVec Ideal S256x16x16 .f32) : FVec Ideal S256x16 .f32 :=
  maximumf (broadcast S256x16 (Scalar.ofBits .f32 0xFF800000#32))
    (multiReduction .maximumf [2] S256x16 l 0xFF800000#32 reduces_S256x16x16_S256x16 (.inl rfl) rfl)

/-- The shifted scores, exponentiated. -/
def shiftExp (l : FVec Ideal S256x16x16 .f32) : FVec Ideal S256x16x16 .f32 :=
  exp (subf l (broadcastTo S256x16x16 (shapeCast S256x16x1 (rowTop l) shapeCasts_S256x16_S256x16x1) broadcasts_S256x16x1_S256x16x16))

/-- Normalised along the last axis. -/
def weights (l : FVec Ideal S256x16x16 .f32) : FVec Ideal S256x16x16 .f32 :=
  divf (shiftExp l)
    (broadcastTo S256x16x16
      (shapeCast S256x16x1 (multiReduction .add [2] S256x16 (shiftExp l) 0x00000000#32 reduces_S256x16x16_S256x16 (.inl rfl) rfl)
        shapeCasts_S256x16_S256x16x1)
      broadcasts_S256x16x1_S256x16x16)

/-- The weighting of the value heads. -/
def blend (pr : FVec Ideal S256x16x16 .f32) (v : FVec Ideal S256x16x64 .f32) : FVec Ideal S256x16x64 .f32 :=
  matmul dot_S256x16x16_S256x16x64_S256x16x64_2_1_1_2_0_0 none pr v (constant S256x16x64 .f32 0x00000000#32)

/-- The heads side by side again, in the output's format. -/
def merge (o : FVec Ideal S256x16x64 .f32) : FVec Ideal S256x1024 .bf16 :=
  truncf .bf16 (shapeCast S256x1024 o shapeCasts_S256x16x64_S256x1024) bitsLt_bf16_f32

/-- The first kernel's stored value is the composition of the stages. -/
theorem pay0_eq (x0 : FVec Ideal S256x1024 .f32) (x1 : FVec Ideal S3072x1024 .f32) (x2 : FVec Ideal S1x3072 .f32) :
    k0_pay1 (F := Ideal) x0 x1 x2
      = merge (blend (weights (scores (headsQ (fused x0 x1 x2)) (headsK (fused x0 x1 x2)))) (headsV (fused x0 x1 x2))) := rfl

/-- The second kernel's affine map of a block of 1024 rows. -/
def outProj (x0 : FVec Ideal S1024x1024 .bf16) (x1 : FVec Ideal S1024x1024 .f32) (x2 : FVec Ideal S1x1024 .f32) :
    FVec Ideal S1024x1024 .f32 :=
  addf (matmul dot_S1024x1024_S1024x1024_S1024x1024_1_1_0_0_n_n none
      (shapeCast S1024x1024 x0 shapeCasts_S1024x1024_S1024x1024) (truncf .bf16 x1 bitsLt_bf16_f32)
      (constant S1024x1024 .f32 0x00000000#32))
    (broadcastTo S1024x1024 (shapeCast S1x1024 x2 shapeCasts_S1x1024_S1x1024) broadcasts_S1x1024_S1024x1024)

/-- The second kernel's stored value is that map. -/
theorem pay1_eq (x0 : FVec Ideal S1024x1024 .bf16) (x1 : FVec Ideal S1024x1024 .f32) (x2 : FVec Ideal S1x1024 .f32) :
    k1_pay1 (F := Ideal) x0 x1 x2 = outProj x0 x1 x2 := rfl

end Cert.KernelIdeal.Body

end
-- ==== Proof.KFused.lean ====
/-
  The two affine maps of the kernels read at an entry: a block's row `p` against weight row `o`, summed over the
  1024 shared coordinates, plus the bias row at `o`.
-/
import proofs.«169579_j23837068493215_1_alg».proof.Proof.KStages
import proofs.«169579_j23837068493215_1_alg».proof.Proof.HeadSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.HeadAttn

/-! The coordinates of the two operands of each product, axis by axis. -/

/-- Left operand, axis 0: the output's row. -/
theorem lhs_fused_0 (i : S256x3072.Idx) (q : dot_S256x1024_S3072x1024_S256x3072_1_1_0_0_n_n.contr.Idx) :
    (dot_S256x1024_S3072x1024_S256x3072_1_1_0_0_n_n.lhsIdx i q 0).val = (i 0).val := by
  unfold DotDims.lhsIdx
  rw [dif_neg (show ¬(0 : Fin S256x1024.rank) ∈ dot_S256x1024_S3072x1024_S256x3072_1_1_0_0_n_n.lhsBatch by decide),
    dif_pos (show (0 : Fin S256x1024.rank) ∈ dot_S256x1024_S3072x1024_S256x3072_1_1_0_0_n_n.lhsNonContracting by decide)]
  rfl
/-- Left operand, axis 1: the summation coordinate. -/
theorem lhs_fused_1 (i : S256x3072.Idx) (q : dot_S256x1024_S3072x1024_S256x3072_1_1_0_0_n_n.contr.Idx) :
    (dot_S256x1024_S3072x1024_S256x3072_1_1_0_0_n_n.lhsIdx i q 1).val = (q ⟨0, by decide⟩).val :=
  dot_S256x1024_S3072x1024_S256x3072_1_1_0_0_n_n.lhsIdx_val_of_single rfl i q
/-- Right operand, axis 0: the output's column. -/
theorem rhs_fused_0 (i : S256x3072.Idx) (q : dot_S256x1024_S3072x1024_S256x3072_1_1_0_0_n_n.contr.Idx) :
    (dot_S256x1024_S3072x1024_S256x3072_1_1_0_0_n_n.rhsIdx i q 0).val = (i 1).val := by
  unfold DotDims.rhsIdx
  rw [dif_neg (show ¬(0 : Fin S3072x1024.rank) ∈ dot_S256x1024_S3072x1024_S256x3072_1_1_0_0_n_n.rhsBatch by decide),
    dif_pos (show (0 : Fin S3072x1024.rank) ∈ dot_S256x1024_S3072x1024_S256x3072_1_1_0_0_n_n.rhsNonContracting by decide)]
  rfl
/-- Right operand, axis 1: the summation coordinate. -/
theorem rhs_fused_1 (i : S256x3072.Idx) (q : dot_S256x1024_S3072x1024_S256x3072_1_1_0_0_n_n.contr.Idx) :
    (dot_S256x1024_S3072x1024_S256x3072_1_1_0_0_n_n.rhsIdx i q 1).val = (q ⟨0, by decide⟩).val :=
  dot_S256x1024_S3072x1024_S256x3072_1_1_0_0_n_n.rhsIdx_val_of_single rfl i q

/-- Left operand, axis 0: the output's row. -/
theorem lhs_outProj_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
/-- Left operand, axis 1: the summation coordinate. -/
theorem lhs_outProj_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- Right operand, axis 0: the output's column. -/
theorem rhs_outProj_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
/-- Right operand, axis 1: the summation coordinate. -/
theorem rhs_outProj_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The fused projection at token `p` of the block and output `o`. -/
theorem fused_apply (x0 : FVec Ideal S256x1024 .f32) (x1 : FVec Ideal S3072x1024 .f32) (x2 : FVec Ideal S1x3072 .f32)
    (p : Fin 256) (o : Fin 3072) :
    fused x0 x1 x2 (ix2 p o)
      = lin (fun c : Fin 1024 => x0 (ix2 p c)) (fun (o' : Fin 3072) (c : Fin 1024) => x1 (ix2 o' c))
          (fun o' : Fin 3072 => x2 (ix2 (0 : Fin 1) o')) o := by
  unfold fused lin
  rw [addf_apply]
  show FloatOps.matmul _ _ _ _ _ _ + _ = _
  rw [Ideal.matmul_constant_zero_apply,
    ← Equiv.sum_comp (contrEquiv1 dot_S256x1024_S3072x1024_S256x3072_1_1_0_0_n_n 1024 rfl rfl).symm,
    broadcastTo_1b_ab_apply, shapeCast_self x0, shapeCast_self x2]
  -- the bias terms agree as they stand; the sums agree term by term over the 1024 shared coordinates
  congr 1
  refine Finset.sum_congr rfl fun k _ => ?_
  have hk := contrEquiv1_symm_val dot_S256x1024_S3072x1024_S256x3072_1_1_0_0_n_n 1024 rfl rfl k
  have el : dot_S256x1024_S3072x1024_S256x3072_1_1_0_0_n_n.lhsIdx (ix2 p o) ((contrEquiv1 dot_S256x1024_S3072x1024_S256x3072_1_1_0_0_n_n 1024 rfl rfl).symm k) = ix2 p k :=
    funext fun a => Fin.ext (by
      match a with
      | ⟨0, _⟩ => exact lhs_fused_0 _ _
      | ⟨1, _⟩ => exact (lhs_fused_1 _ _).trans hk)
  have er : dot_S256x1024_S3072x1024_S256x3072_1_1_0_0_n_n.rhsIdx (ix2 p o) ((contrEquiv1 dot_S256x1024_S3072x1024_S256x3072_1_1_0_0_n_n 1024 rfl rfl).symm k) = ix2 o k :=
    funext fun a => Fin.ext (by
      match a with
      | ⟨0, _⟩ => exact rhs_fused_0 _ _
      | ⟨1, _⟩ => exact (rhs_fused_1 _ _).trans hk)
  -- narrowing the format is the identity on the extended reals
  rw [el, er]
  rw [truncf_apply, truncf_apply]

/-- The output projection at row `p` of the block and output `o`. -/
theorem outProj_apply (x0 : FVec Ideal S1024x1024 .bf16) (x1 : FVec Ideal S1024x1024 .f32) (x2 : FVec Ideal S1x1024 .f32)
    (p : Fin 1024) (o : Fin 1024) :
    outProj x0 x1 x2 (ix2 p o)
      = lin (fun c : Fin 1024 => x0 (ix2 p c)) (fun (o' : Fin 1024) (c : Fin 1024) => x1 (ix2 o' c))
          (fun o' : Fin 1024 => x2 (ix2 (0 : Fin 1) o')) o := by
  unfold outProj lin
  rw [addf_apply]
  show FloatOps.matmul _ _ _ _ _ _ + _ = _
  rw [Ideal.matmul_constant_zero_apply,
    ← Equiv.sum_comp (contrEquiv1 dot_S1024x1024_S1024x1024_S1024x1024_1_1_0_0_n_n 1024 rfl rfl).symm,
    broadcastTo_1b_ab_apply, shapeCast_self x0, shapeCast_self x2]
  -- the bias terms agree as they stand; the sums agree term by term over the 1024 shared coordinates
  congr 1
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p o) ((contrEquiv1 dot_S1024x1024_S1024x1024_S1024x1024_1_1_0_0_n_n 1024 rfl rfl).symm k) = ix2 p k :=
    funext fun a => Fin.ext (by
      match a with
      | ⟨0, _⟩ => exact lhs_outProj_0 _ _
      | ⟨1, _⟩ => exact (lhs_outProj_1 _ _).trans hk)
  have er : dot_S1024x1024_S1024x1024_S1024x1024_1_1_0_0_n_n.rhsIdx (ix2 p o) ((contrEquiv1 dot_S1024x1024_S1024x1024_S1024x1024_1_1_0_0_n_n 1024 rfl rfl).symm k) = ix2 o k :=
    funext fun a => Fin.ext (by
      match a with
      | ⟨0, _⟩ => exact rhs_outProj_0 _ _
      | ⟨1, _⟩ => exact (rhs_outProj_1 _ _).trans hk)
  -- narrowing the format is the identity on the extended reals
  rw [el, er]
  rw [truncf_apply]

end Cert.KernelIdeal.Body

end
-- ==== Proof.KHeads.lean ====
/-
  The thirds of the fused rows as heads: entry `d` of head `h` of token `p` is the fused row's entry at the third's
  start plus `64 h + d`; and the heads laid side by side again put entry `d` of head `h` at column `64 h + d`.
-/
import proofs.«169579_j23837068493215_1_alg».proof.Proof.KStages
import proofs.«169579_j23837068493215_1_alg».proof.Proof.HeadSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.HeadAttn

/-- A unit-stride slice of 1024 columns starting at column `s`, then viewed as 16 heads of 64: entry `d` of head `h` of
    token `p` has row-major position `(16 p + h) 64 + d = 1024 p + (64 h + d)` in the slice, which is column
    `s + (64 h + d)` of row `p` of the fused rows. -/
theorem third_apply (s : Nat) (hs : s + 1024 ≤ 3072) (u : FVec Ideal S256x3072 .f32)
    (hsl : S256x3072.Slices ![0, s] S256x1024) (p : Fin 256) (h : Fin 16) (d : Fin 64) :
    shapeCast S256x16x64 (extractStridedSlice S256x1024 ![0, s] u hsl) shapeCasts_S256x1024_S256x16x64 (ix3 p h d)
      = part s hs (fun o : Fin 3072 => u (ix2 p o)) h d := by
  have hh := h.isLt
  have hd := d.isLt
  refine (shapeCast_apply _ shapeCasts_S256x1024_S256x16x64 (ix3 p h d)
    (ix2 p (⟨h.val * 64 + d.val, by omega⟩ : Fin 1024)) (by
      rw [Shape.rowMajor_val_two, Shape.rowMajor_val_three]
      show p.val * 1024 + (h.val * 64 + d.val) = (p.val * 16 + h.val) * 64 + d.val
      omega)).trans ?_
  refine (extractStridedSlice_apply ![0, s] u hsl _
    (ix2 p (⟨s + (h.val * 64 + d.val), by omega⟩ : Fin 3072)) (fun a => match a with
      | ⟨0, _⟩ => by show p.val = 0 + p.val; omega
      | ⟨1, _⟩ => by show s + (h.val * 64 + d.val) = s + (h.val * 64 + d.val); rfl)).trans ?_
  rfl

theorem headsQ_apply (u : FVec Ideal S256x3072 .f32) (p : Fin 256) (h : Fin 16) (d : Fin 64) :
    headsQ u (ix3 p h d) = qry (fun o : Fin 3072 => u (ix2 p o)) h d :=
  third_apply 0 (by omega) u slices_S256x3072_o0_0_S256x1024 p h d

theorem headsK_apply (u : FVec Ideal S256x3072 .f32) (p : Fin 256) (h : Fin 16) (d : Fin 64) :
    headsK u (ix3 p h d) = key (fun o : Fin 3072 => u (ix2 p o)) h d :=
  third_apply 1024 (by omega) u slices_S256x3072_o0_1024_S256x1024 p h d

theorem headsV_apply (u : FVec Ideal S256x3072 .f32) (p : Fin 256) (h : Fin 16) (d : Fin 64) :
    headsV u (ix3 p h d) = vlu (fun o : Fin 3072 => u (ix2 p o)) h d :=
  third_apply 2048 (by omega) u slices_S256x3072_o0_2048_S256x1024 p h d

/-- The heads side by side again: column `64 h + d` of row `p` has row-major position `1024 p + (64 h + d)
    = (16 p + h) 64 + d`, the position of entry `d` of head `h` of token `p`; the change of format is the identity on
    the extended reals. -/
theorem merge_apply (o : FVec Ideal S256x16x64 .f32) (p : Fin 256) (h : Fin 16) (d : Fin 64) (j : Fin 1024)
    (hj : j.val = h.val * 64 + d.val) : merge o (ix2 p j) = o (ix3 p h d) := by
  unfold merge
  rw [truncf_apply]
  exact shapeCast_apply o shapeCasts_S256x16x64_S256x1024 (ix2 p j) (ix3 p h d) (by
    rw [Shape.rowMajor_val_three, Shape.rowMajor_val_two]
    show (p.val * 16 + h.val) * 64 + d.val = p.val * 1024 + j.val
    omega)

end Cert.KernelIdeal.Body

end
-- ==== Proof.KScores.lean ====
/-
  The two batched products of the first kernel read at an entry. Token by token: the score of query head `h` against
  key head `g` is their inner product over the 64 entries, times the scale; the blend for head `h` at entry `d` sums
  the weights of head `h` against the value heads' entries `d`.
-/
import proofs.«169579_j23837068493215_1_alg».proof.Proof.KStages
import proofs.«169579_j23837068493215_1_alg».proof.Proof.HeadSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.HeadAttn

/-! ## The scores' product: which entries of the two operands an entry of the result reads

The token axis 0 is carried along by both operands; axis 1 of the left operand is the result's axis 1 and axis 1 of the
right operand is the result's axis 2; axis 2 of both is summed over. -/

theorem scores_lhs_0 (i : S256x16x16.Idx) (q : dot_S256x16x64_S256x16x64_S256x16x16_2_2_1_1_0_0.contr.Idx) :
    (dot_S256x16x64_S256x16x64_S256x16x16_2_2_1_1_0_0.lhsIdx i q 0).val = (i 0).val := by
  unfold DotDims.lhsIdx
  rw [dif_pos (show (0 : Fin S256x16x64.rank) ∈ dot_S256x16x64_S256x16x64_S256x16x16_2_2_1_1_0_0.lhsBatch by decide)]
  rfl
theorem scores_lhs_1 (i : S256x16x16.Idx) (q : dot_S256x16x64_S256x16x64_S256x16x16_2_2_1_1_0_0.contr.Idx) :
    (dot_S256x16x64_S256x16x64_S256x16x16_2_2_1_1_0_0.lhsIdx i q 1).val = (i 1).val := by
  unfold DotDims.lhsIdx
  rw [dif_neg (show ¬(1 : Fin S256x16x64.rank) ∈ dot_S256x16x64_S256x16x64_S256x16x16_2_2_1_1_0_0.lhsBatch by decide), dif_pos (show (1 : Fin S256x16x64.rank) ∈ dot_S256x16x64_S256x16x64_S256x16x16_2_2_1_1_0_0.lhsNonContracting by decide)]
  rfl
theorem scores_lhs_2 (i : S256x16x16.Idx) (q : dot_S256x16x64_S256x16x64_S256x16x16_2_2_1_1_0_0.contr.Idx) :
    (dot_S256x16x64_S256x16x64_S256x16x16_2_2_1_1_0_0.lhsIdx i q 2).val = (q ⟨0, by decide⟩).val :=
  dot_S256x16x64_S256x16x64_S256x16x16_2_2_1_1_0_0.lhsIdx_val_of_single rfl i q
theorem scores_rhs_0 (i : S256x16x16.Idx) (q : dot_S256x16x64_S256x16x64_S256x16x16_2_2_1_1_0_0.contr.Idx) :
    (dot_S256x16x64_S256x16x64_S256x16x16_2_2_1_1_0_0.rhsIdx i q 0).val = (i 0).val := by
  unfold DotDims.rhsIdx
  rw [dif_pos (show (0 : Fin S256x16x64.rank) ∈ dot_S256x16x64_S256x16x64_S256x16x16_2_2_1_1_0_0.rhsBatch by decide)]
  rfl
theorem scores_rhs_1 (i : S256x16x16.Idx) (q : dot_S256x16x64_S256x16x64_S256x16x16_2_2_1_1_0_0.contr.Idx) :
    (dot_S256x16x64_S256x16x64_S256x16x16_2_2_1_1_0_0.rhsIdx i q 1).val = (i 2).val := by
  unfold DotDims.rhsIdx
  rw [dif_neg (show ¬(1 : Fin S256x16x64.rank) ∈ dot_S256x16x64_S256x16x64_S256x16x16_2_2_1_1_0_0.rhsBatch by decide), dif_pos (show (1 : Fin S256x16x64.rank) ∈ dot_S256x16x64_S256x16x64_S256x16x16_2_2_1_1_0_0.rhsNonContracting by decide)]
  rfl
theorem scores_rhs_2 (i : S256x16x16.Idx) (q : dot_S256x16x64_S256x16x64_S256x16x16_2_2_1_1_0_0.contr.Idx) :
    (dot_S256x16x64_S256x16x64_S256x16x16_2_2_1_1_0_0.rhsIdx i q 2).val = (q ⟨0, by decide⟩).val :=
  dot_S256x16x64_S256x16x64_S256x16x16_2_2_1_1_0_0.rhsIdx_val_of_single rfl i q

theorem scores_apply (q k : FVec Ideal S256x16x64 .f32) (p : Fin 256) (h g : Fin 16) :
    scores q k (ix3 p h g) = (∑ d : Fin 64, q (ix3 p h d) * k (ix3 p g d)) * scl := by
  unfold scores
  rw [mulf_apply, broadcast_apply]
  show (matmul dot_S256x16x64_S256x16x64_S256x16x16_2_2_1_1_0_0 none q k (constant S256x16x16 .f32 0x00000000#32)) (ix3 p h g) * scl = _
  refine congrArg (· * scl) ?_
  refine (Ideal.matmul_constant_zero_apply dot_S256x16x64_S256x16x64_S256x16x16_2_2_1_1_0_0 none q k (ix3 p h g)).trans ?_
  rw [← Equiv.sum_comp (contrEquiv1 dot_S256x16x64_S256x16x64_S256x16x16_2_2_1_1_0_0 64 rfl rfl).symm]
  refine Finset.sum_congr rfl fun d _ => ?_
  have hd := contrEquiv1_symm_val dot_S256x16x64_S256x16x64_S256x16x16_2_2_1_1_0_0 64 rfl rfl d
  have el : dot_S256x16x64_S256x16x64_S256x16x16_2_2_1_1_0_0.lhsIdx (ix3 p h g) ((contrEquiv1 dot_S256x16x64_S256x16x64_S256x16x16_2_2_1_1_0_0 64 rfl rfl).symm d) = ix3 p h d := funext fun a => Fin.ext (by
    match a with
    | ⟨0, _⟩ => exact scores_lhs_0 _ _
    | ⟨1, _⟩ => exact scores_lhs_1 _ _
    | ⟨2, _⟩ => exact (scores_lhs_2 _ _).trans hd)
  have er : dot_S256x16x64_S256x16x64_S256x16x16_2_2_1_1_0_0.rhsIdx (ix3 p h g) ((contrEquiv1 dot_S256x16x64_S256x16x64_S256x16x16_2_2_1_1_0_0 64 rfl rfl).symm d) = ix3 p g d := funext fun a => Fin.ext (by
    match a with
    | ⟨0, _⟩ => exact scores_rhs_0 _ _
    | ⟨1, _⟩ => exact scores_rhs_1 _ _
    | ⟨2, _⟩ => exact (scores_rhs_2 _ _).trans hd)
  rw [el, er]

/-! ## The blend's product

The token axis 0 is carried along by both operands; axis 1 of the left operand is the result's axis 1 and axis 2 of the
right operand is the result's axis 2; axis 2 of the left operand and axis 1 of the right are summed over together. -/

theorem blend_lhs_0 (i : S256x16x64.Idx) (q : dot_S256x16x16_S256x16x64_S256x16x64_2_1_1_2_0_0.contr.Idx) :
    (dot_S256x16x16_S256x16x64_S256x16x64_2_1_1_2_0_0.lhsIdx i q 0).val = (i 0).val := by
  unfold DotDims.lhsIdx
  rw [dif_pos (show (0 : Fin S256x16x16.rank) ∈ dot_S256x16x16_S256x16x64_S256x16x64_2_1_1_2_0_0.lhsBatch by decide)]
  rfl
theorem blend_lhs_1 (i : S256x16x64.Idx) (q : dot_S256x16x16_S256x16x64_S256x16x64_2_1_1_2_0_0.contr.Idx) :
    (dot_S256x16x16_S256x16x64_S256x16x64_2_1_1_2_0_0.lhsIdx i q 1).val = (i 1).val := by
  unfold DotDims.lhsIdx
  rw [dif_neg (show ¬(1 : Fin S256x16x16.rank) ∈ dot_S256x16x16_S256x16x64_S256x16x64_2_1_1_2_0_0.lhsBatch by decide), dif_pos (show (1 : Fin S256x16x16.rank) ∈ dot_S256x16x16_S256x16x64_S256x16x64_2_1_1_2_0_0.lhsNonContracting by decide)]
  rfl
theorem blend_lhs_2 (i : S256x16x64.Idx) (q : dot_S256x16x16_S256x16x64_S256x16x64_2_1_1_2_0_0.contr.Idx) :
    (dot_S256x16x16_S256x16x64_S256x16x64_2_1_1_2_0_0.lhsIdx i q 2).val = (q ⟨0, by decide⟩).val :=
  dot_S256x16x16_S256x16x64_S256x16x64_2_1_1_2_0_0.lhsIdx_val_of_single rfl i q
theorem blend_rhs_0 (i : S256x16x64.Idx) (q : dot_S256x16x16_S256x16x64_S256x16x64_2_1_1_2_0_0.contr.Idx) :
    (dot_S256x16x16_S256x16x64_S256x16x64_2_1_1_2_0_0.rhsIdx i q 0).val = (i 0).val := by
  unfold DotDims.rhsIdx
  rw [dif_pos (show (0 : Fin S256x16x64.rank) ∈ dot_S256x16x16_S256x16x64_S256x16x64_2_1_1_2_0_0.rhsBatch by decide)]
  rfl
theorem blend_rhs_1 (i : S256x16x64.Idx) (q : dot_S256x16x16_S256x16x64_S256x16x64_2_1_1_2_0_0.contr.Idx) :
    (dot_S256x16x16_S256x16x64_S256x16x64_2_1_1_2_0_0.rhsIdx i q 1).val = (q ⟨0, by decide⟩).val :=
  dot_S256x16x16_S256x16x64_S256x16x64_2_1_1_2_0_0.rhsIdx_val_of_single rfl i q
theorem blend_rhs_2 (i : S256x16x64.Idx) (q : dot_S256x16x16_S256x16x64_S256x16x64_2_1_1_2_0_0.contr.Idx) :
    (dot_S256x16x16_S256x16x64_S256x16x64_2_1_1_2_0_0.rhsIdx i q 2).val = (i 2).val := by
  unfold DotDims.rhsIdx
  rw [dif_neg (show ¬(2 : Fin S256x16x64.rank) ∈ dot_S256x16x16_S256x16x64_S256x16x64_2_1_1_2_0_0.rhsBatch by decide), dif_pos (show (2 : Fin S256x16x64.rank) ∈ dot_S256x16x16_S256x16x64_S256x16x64_2_1_1_2_0_0.rhsNonContracting by decide)]
  rfl

theorem blend_apply (pr : FVec Ideal S256x16x16 .f32) (v : FVec Ideal S256x16x64 .f32) (p : Fin 256) (h : Fin 16) (d : Fin 64) :
    blend pr v (ix3 p h d) = ∑ g : Fin 16, pr (ix3 p h g) * v (ix3 p g d) := by
  unfold blend
  refine (Ideal.matmul_constant_zero_apply dot_S256x16x16_S256x16x64_S256x16x64_2_1_1_2_0_0 none pr v (ix3 p h d)).trans ?_
  rw [← Equiv.sum_comp (contrEquiv1 dot_S256x16x16_S256x16x64_S256x16x64_2_1_1_2_0_0 16 rfl rfl).symm]
  refine Finset.sum_congr rfl fun g _ => ?_
  have hg := contrEquiv1_symm_val dot_S256x16x16_S256x16x64_S256x16x64_2_1_1_2_0_0 16 rfl rfl g
  have el : dot_S256x16x16_S256x16x64_S256x16x64_2_1_1_2_0_0.lhsIdx (ix3 p h d) ((contrEquiv1 dot_S256x16x16_S256x16x64_S256x16x64_2_1_1_2_0_0 16 rfl rfl).symm g) = ix3 p h g := funext fun a => Fin.ext (by
    match a with
    | ⟨0, _⟩ => exact blend_lhs_0 _ _
    | ⟨1, _⟩ => exact blend_lhs_1 _ _
    | ⟨2, _⟩ => exact (blend_lhs_2 _ _).trans hg)
  have er : dot_S256x16x16_S256x16x64_S256x16x64_2_1_1_2_0_0.rhsIdx (ix3 p h d) ((contrEquiv1 dot_S256x16x16_S256x16x64_S256x16x64_2_1_1_2_0_0 16 rfl rfl).symm g) = ix3 p g d := funext fun a => Fin.ext (by
    match a with
    | ⟨0, _⟩ => exact blend_rhs_0 _ _
    | ⟨1, _⟩ => exact (blend_rhs_1 _ _).trans hg
    | ⟨2, _⟩ => exact blend_rhs_2 _ _)
  rw [el, er]

end Cert.KernelIdeal.Body

end
-- ==== Proof.KWeights.lean ====
/-
  The normalisation of the scores along the last axis, read at an entry: for token `p` and head `h` it is the row
  softmax `soft` of that head's 16 scores.
-/
import proofs.«169579_j23837068493215_1_alg».proof.Proof.KStages
import proofs.«169579_j23837068493215_1_alg».proof.Proof.HeadSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.HeadAttn

/-- The source index over row `(p, h)` with coordinate `k` on the reduced last axis is `(p, h, k)`. -/
theorem lift_row (p : Fin 256) (h : Fin 16) (k : Fin 16) :
    reduces_S256x16x16_S256x16.lift (ix2 p h) k = ix3 p h k := by
  funext c
  refine Fin.ext ?_
  match c with
  | ⟨0, _⟩ => rfl
  | ⟨1, _⟩ => rfl
  | ⟨2, _⟩ => rfl

/-- The maximum along the last axis read at a row: the fold of `max` from minus infinity over the row's 16 entries. -/
theorem rowMax_apply (l : FVec Ideal S256x16x16 .f32) (p : Fin 256) (h : Fin 16) :
    multiReduction (F := Ideal) .maximumf [2] S256x16 l 0xFF800000#32 reduces_S256x16x16_S256x16 (.inl rfl) rfl (ix2 p h)
      = (Finset.univ : Finset (Fin 16)).fold max ninf (fun g' : Fin 16 => l (ix3 p h g')) := by
  refine (Ideal.multiReduction_maximumf_single (φ := .f32) l _ reduces_S256x16x16_S256x16 _ _ (ix2 p h)).trans ?_
  have e : (l ∘ reduces_S256x16x16_S256x16.lift (ix2 p h)) = fun g' : Fin 16 => l (ix3 p h g') :=
    funext fun k => congrArg l (lift_row p h k)
  rw [e]
  rfl

/-- The row maximum, taken once more against minus infinity, read at a row. -/
theorem rowTop_apply (l : FVec Ideal S256x16x16 .f32) (p : Fin 256) (h : Fin 16) :
    rowTop l (ix2 p h)
      = max ninf ((Finset.univ : Finset (Fin 16)).fold max ninf (fun g' : Fin 16 => l (ix3 p h g'))) := by
  show max ninf (multiReduction (F := Ideal) .maximumf [2] S256x16 l 0xFF800000#32 reduces_S256x16x16_S256x16 (.inl rfl) rfl (ix2 p h)) = _
  rw [rowMax_apply]

/-- A per-row quantity viewed as a column of length one and repeated along the last axis reads, at `(p, h, g)`, the
    quantity at row `(p, h)`. -/
theorem column_apply (x : FVec Ideal S256x16 .f32) (p : Fin 256) (h g : Fin 16) :
    broadcastTo S256x16x16 (shapeCast S256x16x1 x shapeCasts_S256x16_S256x16x1) broadcasts_S256x16x1_S256x16x16 (ix3 p h g)
      = x (ix2 p h) := by
  refine (broadcastTo_apply _ broadcasts_S256x16x1_S256x16x16 (ix3 p h g) (ix3 p h (0 : Fin 1)) ?_).trans ?_
  · intro a
    match a with
    | ⟨0, _⟩ => rfl
    | ⟨1, _⟩ => rfl
    | ⟨2, _⟩ => rfl
  · refine shapeCast_apply x shapeCasts_S256x16_S256x16x1 (ix3 p h (0 : Fin 1)) (ix2 p h) ?_
    rw [Shape.rowMajor_val_two, Shape.rowMajor_val_three]
    show p.val * 16 + h.val = (p.val * 16 + h.val) * 1 + 0
    omega

/-- The shifted, exponentiated scores read at an entry. -/
theorem shiftExp_apply (l : FVec Ideal S256x16x16 .f32) (p : Fin 256) (h g : Fin 16) :
    shiftExp l (ix3 p h g) = Ideal.exp (l (ix3 p h g) - rowTop l (ix2 p h)) := by
  show Ideal.exp (l (ix3 p h g) - broadcastTo S256x16x16 (shapeCast S256x16x1 (rowTop l) shapeCasts_S256x16_S256x16x1)
    broadcasts_S256x16x1_S256x16x16 (ix3 p h g)) = _
  rw [column_apply]

/-- The sum along the last axis read at a row: the sum of the row's 16 entries. -/
theorem rowSum_apply (e : FVec Ideal S256x16x16 .f32) (p : Fin 256) (h : Fin 16) :
    multiReduction (F := Ideal) .add [2] S256x16 e 0x00000000#32 reduces_S256x16x16_S256x16 (.inl rfl) rfl (ix2 p h)
      = ∑ g' : Fin 16, e (ix3 p h g') := by
  refine (Ideal.multiReduction_add_single (φ := .f32) e _ reduces_S256x16x16_S256x16 _ _ (ix2 p h)).trans ?_
  exact Finset.sum_congr rfl fun k _ => congrArg e (lift_row p h k)

theorem weights_apply (l : FVec Ideal S256x16x16 .f32) (p : Fin 256) (h g : Fin 16) :
    weights l (ix3 p h g) = soft (fun g' : Fin 16 => l (ix3 p h g')) g := by
  show Ideal.div (shiftExp l (ix3 p h g))
    (broadcastTo S256x16x16
      (shapeCast S256x16x1 (multiReduction (F := Ideal) .add [2] S256x16 (shiftExp l) 0x00000000#32 reduces_S256x16x16_S256x16 (.inl rfl) rfl)
        shapeCasts_S256x16_S256x16x1)
      broadcasts_S256x16x1_S256x16x16 (ix3 p h g)) = _
  rw [column_apply, rowSum_apply]
  unfold soft
  simp only [shiftExp_apply, rowTop_apply]

end Cert.KernelIdeal.Body

end
-- ==== Proof.KPay.lean ====
/-
  The kernels' stored values at an entry, in terms of the per-token mathematics.
-/
import proofs.«169579_j23837068493215_1_alg».proof.Proof.KFused
import proofs.«169579_j23837068493215_1_alg».proof.Proof.KHeads
import proofs.«169579_j23837068493215_1_alg».proof.Proof.KScores
import proofs.«169579_j23837068493215_1_alg».proof.Proof.KWeights

noncomputable section

namespace Cert.KernelIdeal.Body

open Idealize.ShloMosaic Idealize.ShloMosaic.ValueIdx Cert.KernelIdeal Cert.KernelIdeal.Gen Cert.HeadAttn

/-- The first kernel's stored block at token `p`, column `64 h + d`: the attention output of head `h` at entry `d` of
    that token's fused row. -/
theorem pay0_apply (x0 : FVec Ideal S256x1024 .f32) (x1 : FVec Ideal S3072x1024 .f32) (x2 : FVec Ideal S1x3072 .f32)
    (p : Fin 256) (h : Fin 16) (d : Fin 64) (j : Fin 1024) (hj : j.val = h.val * 64 + d.val) :
    k0_pay1 (F := Ideal) x0 x1 x2 (ix2 p j)
      = mix (fun o : Fin 3072 => lin (fun c : Fin 1024 => x0 (ix2 p c)) (fun (o' : Fin 3072) (c : Fin 1024) => x1 (ix2 o' c))
          (fun o' : Fin 3072 => x2 (ix2 (0 : Fin 1) o')) o) h d := by
  -- the token's fused row
  have hu : (fun o : Fin 3072 => fused x0 x1 x2 (ix2 p o))
      = (fun o : Fin 3072 => lin (fun c : Fin 1024 => x0 (ix2 p c)) (fun (o' : Fin 3072) (c : Fin 1024) => x1 (ix2 o' c))
          (fun o' : Fin 3072 => x2 (ix2 (0 : Fin 1) o')) o) :=
    funext fun o => fused_apply x0 x1 x2 p o
  -- the block's scores at this token are the token's scores
  have hl : ∀ g' : Fin 16, scores (headsQ (fused x0 x1 x2)) (headsK (fused x0 x1 x2)) (ix3 p h g')
      = logit (fun o : Fin 3072 => fused x0 x1 x2 (ix2 p o)) h g' := fun g' => by
    rw [scores_apply]; unfold logit
    simp only [headsQ_apply, headsK_apply]
  rw [pay0_eq, merge_apply _ p h d j hj, blend_apply]
  unfold mix prob
  refine Finset.sum_congr rfl fun g _ => ?_
  rw [weights_apply, headsV_apply]
  simp only [hl, hu]

/-- The second kernel's stored block at row `p`, column `o`. -/
theorem pay1_apply (x0 : FVec Ideal S1024x1024 .bf16) (x1 : FVec Ideal S1024x1024 .f32) (x2 : FVec Ideal S1x1024 .f32)
    (p : Fin 1024) (o : Fin 1024) :
    k1_pay1 (F := Ideal) x0 x1 x2 (ix2 p o)
      = lin (fun c : Fin 1024 => x0 (ix2 p c)) (fun (o' : Fin 1024) (c : Fin 1024) => x1 (ix2 o' c))
          (fun o' : Fin 1024 => x2 (ix2 (0 : Fin 1) o')) o := by
  rw [pay1_eq, outProj_apply]

end Cert.KernelIdeal.Body

end
-- ==== Proof.Arr0.lean ====
/-
  From blocks to the array, first kernel: grid point `t` writes rows `256 t … 256 t + 255` of the output array, computed
  from the same rows of the token array and the whole weight and bias arrays; the 128 points' row bands tile the
  32768 rows, so the array ends as `attnArr` of the arrays the region found.
-/
import proofs.«169579_j23837068493215_1_alg».proof.Proof.KArr
import proofs.«169579_j23837068493215_1_alg».proof.Proof.KPay
import proofs.«169579_j23837068493215_1_alg».proof.Proof.Gen.KernelIdeal.Frame
import Idealize.ShloMosaic.Lib.Pipeline.Value
import Idealize.ShloMosaic.Lib.ValueIdx

set_option maxRecDepth 16384

noncomputable section

namespace Cert.KernelIdeal.Arr

open Idealize.ShloMosaic Idealize.ShloMosaic.ValueIdx Idealize.ShloMosaic.TcCoe Idealize.SL.Sem
open Cert.KernelIdeal Cert.KernelIdeal.Gen Cert.KernelIdeal.Body Cert.HeadAttn
open Idealize.ShloMosaic.Pipeline (Dat Cfg Window)

variable (V : (c : Dev nD) → (b : Ref sig .tc) → Buf (Elt Ideal) ((c : Thread nD τ).loc b))

/-- The zero offsets of a whole-buffer access, as the constant function. -/
theorem hz0 : (![0, 0] : Fin 2 → Nat) = fun _ => 0 := funext fun a => by fin_cases a <;> rfl

/-- The index maps over the 128 grid points: the token window and the output window sit at row block `t`, column
    block 0; the weight and bias windows at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The stored block at any entry `y`: head `y 1 / 64`, entry `y 1 % 64` of the attention output of row `y 0`. -/
theorem pay0_at (x0 : FVec Ideal S256x1024 .f32) (x1 : FVec Ideal S3072x1024 .f32) (x2 : FVec Ideal S1x3072 .f32)
    (y : S256x1024.Idx) :
    k0_pay1 (F := Ideal) x0 x1 x2 y
      = mix (fun o : Fin 3072 => lin (fun cc : Fin 1024 => x0 (ix2 (⟨(y 0).val, (y 0).isLt⟩ : Fin 256) cc))
          (fun (o' : Fin 3072) (cc : Fin 1024) => x1 (ix2 o' cc)) (fun o' : Fin 3072 => x2 (ix2 (0 : Fin 1) o')) o)
        ⟨(y 1).val / 64, by have h : (y 1).val < 1024 := (y 1).isLt; omega⟩ ⟨(y 1).val % 64, Nat.mod_lt _ (by decide)⟩ := by
  have h1 : (y 1).val < 1024 := (y 1).isLt
  have e : y = ix2 (⟨(y 0).val, (y 0).isLt⟩ : Fin 256) (⟨(y 1).val, (y 1).isLt⟩ : Fin 1024) := by
    funext a; match a with | ⟨0, _⟩ => rfl | ⟨1, _⟩ => rfl
  conv_lhs => rw [e]
  exact pay0_apply x0 x1 x2 _ ⟨(y 1).val / 64, by omega⟩ ⟨(y 1).val % 64, Nat.mod_lt _ (by decide)⟩ _
    (by show (y 1).val = (y 1).val / 64 * 64 + (y 1).val % 64; omega)

/-- The array function at an index whose coordinates are `r` and `j`. -/
theorem attnArr_apply (X : FVec Ideal S32768x1024 .f32) (W : FVec Ideal S3072x1024 .f32) (B : FVec Ideal S1x3072 .f32)
    (i : S32768x1024.Idx) (r : Fin 32768) (j : Fin 1024) (hr : (i 0).val = r.val) (hj : (i 1).val = j.val) :
    attnArr X W B i
      = mix (fun o : Fin 3072 => lin (fun cc : Fin 1024 => X (ix2 r cc))
          (fun (o' : Fin 3072) (cc : Fin 1024) => W (ix2 o' cc)) (fun o' : Fin 3072 => B (ix2 (0 : Fin 1) o')) o)
        ⟨j.val / 64, by have h := j.isLt; omega⟩ ⟨j.val % 64, Nat.mod_lt _ (by decide)⟩ := by
  obtain rfl : r = ⟨(i 0).val, (i 0).isLt⟩ := Fin.ext hr.symm
  obtain rfl : j = ⟨(i 1).val, (i 1).isLt⟩ := Fin.ext hj.symm
  rfl

/-- Row `p` of the token block at point `t` is row `256 t + p` of the token array. -/
theorem blk0_0_apply (c : Dev nD) (t : Fin cfg0.N) (p : Fin 256) (cc : Fin 1024) (r : Fin 32768)
    (hr : r.val = t.val * 256 + p.val) : iblk0 V c 0 t (ix2 p cc) = V c main_v0 (ix2 r cc) := by
  obtain ⟨e00, e01, -⟩ := idx_facts0 t
  show V c main_v0 (((cfg0.win 0).blk t).view.emb (ix2 p cc)) = V c main_v0 (ix2 r cc)
  refine congrArg _ ?_
  funext a; apply Fin.ext
  match a with
  | ⟨0, _⟩ => show win0_0.index t (0 : Fin 2) * 256 + 1 * p.val = r.val; omega
  | ⟨1, _⟩ => show win0_0.index t (1 : Fin 2) * 1024 + 1 * cc.val = cc.val; omega

/-- The weight block at every point is the weight array. -/
theorem blk0_1_apply (c : Dev nD) (t : Fin cfg0.N) (o' : Fin 3072) (cc : Fin 1024) :
    iblk0 V c 1 t (ix2 o' cc) = V c main_arg1 (ix2 o' cc) := by
  obtain ⟨-, -, e10, e11, -⟩ := idx_facts0 t
  show V c main_arg1 (((cfg0.win 1).blk t).view.emb (ix2 o' cc)) = V c main_arg1 (ix2 o' cc)
  refine congrArg _ ?_
  funext a; apply Fin.ext
  match a with
  | ⟨0, _⟩ => show win0_1.index t (0 : Fin 2) * 3072 + 1 * o'.val = o'.val; omega
  | ⟨1, _⟩ => show win0_1.index t (1 : Fin 2) * 1024 + 1 * cc.val = cc.val; omega

/-- The bias block at every point is the bias array. -/
theorem blk0_2_apply (c : Dev nD) (t : Fin cfg0.N) (o' : Fin 3072) :
    iblk0 V c 2 t (ix2 (0 : Fin 1) o') = V c main_v1 (ix2 (0 : Fin 1) o') := by
  obtain ⟨-, -, -, -, e20, e21, -⟩ := idx_facts0 t
  show V c main_v1 (((cfg0.win 2).blk t).view.emb (ix2 (0 : Fin 1) o')) = V c main_v1 (ix2 (0 : Fin 1) o')
  refine congrArg _ ?_
  funext a; apply Fin.ext
  match a with
  | ⟨0, _⟩ => show win0_2.index t (0 : Fin 2) * 1 + 1 * (0 : Fin 1).val = (0 : Fin 1).val; omega
  | ⟨1, _⟩ => show win0_2.index t (1 : Fin 2) * 3072 + 1 * o'.val = o'.val; omega

/-- What point `t` writes back is block `t` of `attnArr` of the arrays the region found. -/
theorem flushed0_eq (c : Dev nD) (t : Fin cfg0.N) :
    (dat0 (F := Ideal) V c).flushed 3 t
      = ((cfg0.win 3).blk t).view.read (Elt Ideal) (attnArr (V c main_v0) (V c main_arg1) (V c main_v1)) := by
  show (cfg0.win 3).cut (grid0.coords t) ((dat0 V c).after 3 t) = _
  rw [after0_3]
  unfold out0_3
  rw [View.canon_unit_zero hz0]
  simp only [View.ld_unit_zero (S := S256x1024) hz0, View.ld_unit_zero (S := S3072x1024) hz0, View.ld_unit_zero (S := S1x3072) hz0]
  obtain ⟨-, -, -, -, -, -, e30, e31⟩ := idx_facts0 t
  have ht : t.val < 128 := Nat.lt_of_lt_of_eq t.isLt N_0
  funext y
  have hy0 : (y 0).val < 256 := (y 0).isLt
  have hy1 : (y 1).val < 1024 := (y 1).isLt
  show k0_pay1 (F := Ideal) (iblk0 V c 0 t) (iblk0 V c 1 t) (iblk0 V c 2 t) y
    = attnArr (V c main_v0) (V c main_arg1) (V c main_v1) (((cfg0.win 3).blk t).view.emb y)
  refine (pay0_at (iblk0 V c 0 t) (iblk0 V c 1 t) (iblk0 V c 2 t) y).trans ?_
  have hi0 : ((((cfg0.win 3).blk t).view.emb y) 0).val = t.val * 256 + (y 0).val := by
    show win0_3.index t (0 : Fin 2) * 256 + 1 * (y 0).val = _; omega
  have hi1 : ((((cfg0.win 3).blk t).view.emb y) 1).val = (y 1).val := by
    show win0_3.index t (1 : Fin 2) * 1024 + 1 * (y 1).val = _; omega
  rw [attnArr_apply (V c main_v0) (V c main_arg1) (V c main_v1) _ (⟨t.val * 256 + (y 0).val, by omega⟩ : Fin 32768)
    (⟨(y 1).val, hy1⟩ : Fin 1024) hi0 hi1]
  have hA : ∀ cc : Fin 1024, iblk0 V c 0 t (ix2 (⟨(y 0).val, (y 0).isLt⟩ : Fin 256) cc)
      = V c main_v0 (ix2 (⟨t.val * 256 + (y 0).val, by omega⟩ : Fin 32768) cc) :=
    fun cc => blk0_0_apply V c t _ cc _ rfl
  simp only [hA, blk0_1_apply V c t, blk0_2_apply V c t]

/-- An index of the array is in point `t`'s block iff each coordinate is in the block's range on its axis. -/
theorem mem_blk0 (t : Fin cfg0.N) (i : S32768x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v2).slice (win0_3.rect t)).set ↔ _
  rw [View.set_slice_whole, Rect.mem_set_unit]
  exact Iff.rfl

/-- Row `r` of the array lies in the block of point `r / 256`: the 128 row bands tile the 32768 rows. -/
theorem cover0 (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 128 := N_0
  let t : Fin cfg0.N := ⟨(i 0).val / 256, by rw [hN]; omega⟩
  obtain ⟨-, -, -, -, -, -, e30, e31⟩ := idx_facts0 t
  have e30' : win0_3.index t (0 : Fin 2) = (i 0).val / 256 := e30
  refine ⟨t, flush0_3 t, ?_⟩
  rw [mem_blk0]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1024 ≤ (i 1).val ∧ (i 1).val < win0_3.index t (1 : Fin 2) * 1024 + 1024
    omega

theorem arr0 (c : Dev nD) :
    (dat0 (F := Ideal) V c).arrAt 3 cfg0.N = attnArr (V c main_v0) (V c main_arg1) (V c main_v1) := by
  exact (dat0 (F := Ideal) V c).arrAt_eq_of_cover 3 (attnArr (V c main_v0) (V c main_arg1) (V c main_v1))
    (fun t _ => flushed0_eq V c t) cover0

end Cert.KernelIdeal.Arr

end
-- ==== Proof.Arr1.lean ====
/-
  From blocks to the array, second kernel: grid point `t` writes rows `1024 t … 1024 t + 1023` of the output array,
  computed from the same rows of its input array and the whole weight and bias arrays; the 32 points' row bands tile
  the 32768 rows, so the array ends as `projArr` of the arrays the region found.
-/
import proofs.«169579_j23837068493215_1_alg».proof.Proof.KArr
import proofs.«169579_j23837068493215_1_alg».proof.Proof.KPay
import proofs.«169579_j23837068493215_1_alg».proof.Proof.Gen.KernelIdeal.Frame
import Idealize.ShloMosaic.Lib.Pipeline.Value
import Idealize.ShloMosaic.Lib.ValueIdx

set_option maxRecDepth 16384

noncomputable section

namespace Cert.KernelIdeal.Arr

open Idealize.ShloMosaic Idealize.ShloMosaic.ValueIdx Idealize.ShloMosaic.TcCoe Idealize.SL.Sem
open Cert.KernelIdeal Cert.KernelIdeal.Gen Cert.KernelIdeal.Body Cert.HeadAttn
open Idealize.ShloMosaic.Pipeline (Dat Cfg Window)

variable (V : (c : Dev nD) → (b : Ref sig .tc) → Buf (Elt Ideal) ((c : Thread nD τ).loc b))

/-- The two zero offsets, as the constant function. -/
theorem zeros1 : (![0, 0] : Fin 2 → Nat) = fun _ => 0 := funext fun a => by
  match a with
  | ⟨0, _⟩ => rfl
  | ⟨1, _⟩ => rfl

/-- The block indices over the grid: the row-band windows sit at block `(t, 0)`, the whole-array windows at `(0, 0)`. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What the body leaves in its output block at row `p`, column `o`, whatever the three input blocks. -/
theorem out1_apply (x0 : FVec Ideal S1024x1024 .bf16) (x1 : FVec Ideal S1024x1024 .f32) (x2 : FVec Ideal S1x1024 .f32)
    (p o : Fin 1024) :
    out1_3 (F := Ideal) x0 x1 x2 (ix2 p o)
      = lin (fun k : Fin 1024 => x0 (ix2 p k)) (fun (o' : Fin 1024) (k : Fin 1024) => x1 (ix2 o' k))
          (fun o' : Fin 1024 => x2 (ix2 (0 : Fin 1) o')) o := by
  unfold out1_3
  rw [View.canon_unit_zero zeros1]
  simp only [View.ld_unit_zero (S := S1024x1024) zeros1, View.ld_unit_zero (S := S1x1024) zeros1]
  exact pay1_apply x0 x1 x2 p o

/-- Input window 0's block at point `t` is rows `1024 t … 1024 t + 1023` of its array. -/
theorem blk1_0_apply (c : Dev nD) (t : Fin cfg1.N) (p k : Fin 1024) (r : Fin 32768) (hr : r.val = t.val * 1024 + p.val) :
    iblk1 (F := Ideal) V c 0 t (ix2 p k) = V c main_v6 (ix2 r k) := by
  obtain ⟨e00, e01, -⟩ := index1 t
  show V c main_v6 (((cfg1.win 0).blk t).view.emb (ix2 p k)) = V c main_v6 (ix2 r k)
  refine congrArg _ (funext fun a => Fin.ext ?_)
  match a with
  | ⟨0, _⟩ =>
    show win1_0.index t (0 : Fin 2) * 1024 + 1 * p.val = r.val
    omega
  | ⟨1, _⟩ =>
    show win1_0.index t (1 : Fin 2) * 1024 + 1 * k.val = k.val
    omega

/-- Input window 1's block at every point is its whole array. -/
theorem blk1_1_apply (c : Dev nD) (t : Fin cfg1.N) (o k : Fin 1024) :
    iblk1 (F := Ideal) V c 1 t (ix2 o k) = V c main_arg3 (ix2 o k) := by
  obtain ⟨-, -, e10, e11, -⟩ := index1 t
  show V c main_arg3 (((cfg1.win 1).blk t).view.emb (ix2 o k)) = V c main_arg3 (ix2 o k)
  refine congrArg _ (funext fun a => Fin.ext ?_)
  match a with
  | ⟨0, _⟩ =>
    show win1_1.index t (0 : Fin 2) * 1024 + 1 * o.val = o.val
    omega
  | ⟨1, _⟩ =>
    show win1_1.index t (1 : Fin 2) * 1024 + 1 * k.val = k.val
    omega

/-- Input window 2's block at every point is its whole array. -/
theorem blk1_2_apply (c : Dev nD) (t : Fin cfg1.N) (z : Fin 1) (o : Fin 1024) :
    iblk1 (F := Ideal) V c 2 t (ix2 z o) = V c main_v7 (ix2 z o) := by
  obtain ⟨-, -, -, -, e20, e21, -⟩ := index1 t
  show V c main_v7 (((cfg1.win 2).blk t).view.emb (ix2 z o)) = V c main_v7 (ix2 z o)
  refine congrArg _ (funext fun a => Fin.ext ?_)
  match a with
  | ⟨0, _⟩ =>
    show win1_2.index t (0 : Fin 2) * 1 + 1 * z.val = z.val
    omega
  | ⟨1, _⟩ =>
    show win1_2.index t (1 : Fin 2) * 1024 + 1 * o.val = o.val
    omega

/-- What point `t` writes back is block `t` of `projArr` of the arrays the region finds. -/
theorem flushed1_eq (c : Dev nD) (t : Fin cfg1.N) :
    (dat1 (F := Ideal) V c).flushed 3 t
      = ((cfg1.win 3).blk t).view.read (Elt Ideal) (projArr (V c main_v6) (V c main_arg3) (V c main_v7)) := by
  show (cfg1.win 3).cut (grid1.coords t) ((dat1 V c).after 3 t) = _
  rw [after1_3]
  obtain ⟨-, -, -, -, -, -, e30, e31⟩ := index1 t
  have ht : t.val < 32 := t.isLt
  have key : ∀ y : S1024x1024.Idx, out1_3 (F := Ideal) (iblk1 V c 0 t) (iblk1 V c 1 t) (iblk1 V c 2 t) y
      = projArr (V c main_v6) (V c main_arg3) (V c main_v7) (((cfg1.win 3).blk t).view.emb y) := by
    intro y
    obtain ⟨p, o, rfl⟩ : ∃ (p : Fin 1024) (o : Fin 1024), y = ix2 p o := ⟨y 0, y 1, eq_ix2 y⟩
    have hr : (((cfg1.win 3).blk t).view.emb (ix2 p o) 0).val = t.val * 1024 + p.val := by
      show win1_3.index t (0 : Fin 2) * 1024 + 1 * p.val = _
      omega
    have ho : (((cfg1.win 3).blk t).view.emb (ix2 p o) 1).val = o.val := by
      show win1_3.index t (1 : Fin 2) * 1024 + 1 * o.val = _
      omega
    refine (out1_apply (iblk1 V c 0 t) (iblk1 V c 1 t) (iblk1 V c 2 t) p o).trans ?_
    unfold projArr
    have h0 : (fun k : Fin 1024 => iblk1 (F := Ideal) V c 0 t (ix2 p k))
        = fun k : Fin 1024 => V c main_v6 (ix2 (⟨(((cfg1.win 3).blk t).view.emb (ix2 p o) 0).val,
            (((cfg1.win 3).blk t).view.emb (ix2 p o) 0).isLt⟩ : Fin 32768) k) :=
      funext fun k => blk1_0_apply V c t p k _ hr
    have h1 : (fun (o' : Fin 1024) (k : Fin 1024) => iblk1 (F := Ideal) V c 1 t (ix2 o' k))
        = fun (o' : Fin 1024) (k : Fin 1024) => V c main_arg3 (ix2 o' k) :=
      funext fun o' => funext fun k => blk1_1_apply V c t o' k
    have h2 : (fun o' : Fin 1024 => iblk1 (F := Ideal) V c 2 t (ix2 (0 : Fin 1) o'))
        = fun o' : Fin 1024 => V c main_v7 (ix2 (0 : Fin 1) o') :=
      funext fun o' => blk1_2_apply V c t 0 o'
    rw [h0, h1, h2]
    exact congrArg _ (Fin.ext ho.symm)
  funext y
  exact key y

/-- An index of the array is in point `t`'s block iff each coordinate is in the block's range on its axis. -/
theorem mem_blk1 (t : Fin cfg1.N) (i : S32768x1024.Idx) :
    i ∈ ((cfg1.win 3).blk t).view.set
      ↔ ∀ a : Fin 2, win1_3.index t a * S1024x1024.size a ≤ (i a).val
          ∧ (i a).val < win1_3.index t a * S1024x1024.size a + S1024x1024.size a := by
  show i ∈ ((View.whole main_v8).slice (win1_3.rect t)).set ↔ _
  rw [View.set_slice_whole, Rect.mem_set_unit]
  exact Iff.rfl

/-- Row `r` of the array is in the block of point `r / 1024`: the 32 row bands cover the 32768 rows. -/
theorem cover1 (i : S32768x1024.Idx) :
    ∃ t : Fin cfg1.N, (cfg1.win 3).flush t = true ∧ i ∈ ((cfg1.win 3).blk t).view.set := by
  have hi0 : (i 0).val < 32768 := (i 0).isLt
  have hi1 : (i 1).val < 1024 := (i 1).isLt
  obtain ⟨t, ht⟩ : ∃ t : Fin cfg1.N, t.val = (i 0).val / 1024 :=
    ⟨⟨(i 0).val / 1024, by rw [show cfg1.N = 32 from N_1]; omega⟩, rfl⟩
  obtain ⟨-, -, -, -, -, -, e30, e31⟩ := index1 t
  refine ⟨t, flush1_3 t, ?_⟩
  rw [mem_blk1]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- The output array after the last point is `projArr` of the arrays the region finds. -/
theorem arr1 (c : Dev nD) :
    (dat1 (F := Ideal) V c).arrAt 3 cfg1.N = projArr (V c main_v6) (V c main_arg3) (V c main_v7) :=
  (dat1 V c).arrAt_eq_of_cover 3 (projArr (V c main_v6) (V c main_arg3) (V c main_v7))
    (fun t _ => flushed1_eq V c t) cover1

end Cert.KernelIdeal.Arr

end
-- ==== Proof.KValue.lean ====
/-
  The kernel program's result buffer after the run is `result` of the launch contents of its arguments. The run
  leaves every buffer at a fold of the launch memory through the host stretches and the two kernels' arrays; read
  at the result buffer the fold is: the last reshape of the second kernel's array, which is `projArr` of what that
  kernel found; its input is the host's re-layout of the first kernel's array, which is `attnArr` of what that
  kernel found; and what it found are the first stretch's reshapes of the arguments.
-/
import proofs.«169579_j23837068493215_1_alg».proof.Proof.KGlue
import proofs.«169579_j23837068493215_1_alg».proof.Proof.Arr0
import proofs.«169579_j23837068493215_1_alg».proof.Proof.Arr1
import proofs.«169579_j23837068493215_1_alg».proof.Proof.Gen.KernelIdeal.Frame
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.Arr

variable (m : (ℓ : Loc nD τ sig) → Buf (Elt Ideal) ℓ) (ρ : Dev nD → PrngReg)

/-! ## What the first kernel finds -/

theorem enter0_tokens (c : Dev nD) :
    V1 m ρ c main_v0 = shapeCast S32768x1024 (m ((c : Thread nD τ).loc main_arg0)) shapeCasts_S8x4096x1024_S32768x1024 := by
  show StableHlo.after hostOps0 (W0 m ρ c) (Proc.devRef .tc main_v0) = _
  after_results; rfl

theorem enter0_weights (c : Dev nD) : V1 m ρ c main_arg1 = m ((c : Thread nD τ).loc main_arg1) := by
  show StableHlo.after hostOps0 (W0 m ρ c) (Proc.devRef .tc main_arg1) = _
  after_results

theorem enter0_bias (c : Dev nD) :
    V1 m ρ c main_v1 = shapeCast S1x3072 (m ((c : Thread nD τ).loc main_arg2)) shapeCasts_S3072_S1x3072 := by
  show StableHlo.after hostOps0 (W0 m ρ c) (Proc.devRef .tc main_v1) = _
  after_results; rfl

/-! ## What the first kernel leaves -/

theorem leave0 (c : Dev nD) :
    W2 m ρ c (Proc.devRef .tc main_v2) = attnArr (V1 m ρ c main_v0) (V1 m ρ c main_arg1) (V1 m ρ c main_v1) :=
  (W2_arr m ρ c 3).trans (arr0 (V1 m ρ) c)

/-! ## What the second kernel finds -/

theorem enter1_rows (c : Dev nD) : V3 m ρ c main_v6 = relay (W2 m ρ c (Proc.devRef .tc main_v2)) := by
  show StableHlo.after hostOps1 (W2 m ρ c) (Proc.devRef .tc main_v6) = _
  after_results; rfl

theorem enter1_weights (c : Dev nD) : V3 m ρ c main_arg3 = m ((c : Thread nD τ).loc main_arg3) := by
  have e1 : StableHlo.after hostOps1 (W2 m ρ c) (Proc.devRef .tc main_arg3) = W2 m ρ c (Proc.devRef .tc main_arg3) := by
    after_results
  have e0 : StableHlo.after hostOps0 (W0 m ρ c) (Proc.devRef .tc main_arg3) = W0 m ρ c (Proc.devRef .tc main_arg3) := by
    after_results
  exact e1.trans ((W2_of_ne m ρ c main_arg3 (by decide)).trans e0)

theorem enter1_bias (c : Dev nD) :
    V3 m ρ c main_v7 = shapeCast S1x1024 (m ((c : Thread nD τ).loc main_arg4)) shapeCasts_S1024_S1x1024 := by
  have e1 : StableHlo.after hostOps1 (W2 m ρ c) (Proc.devRef .tc main_v7)
      = shapeCast S1x1024 (W2 m ρ c (Proc.devRef .tc main_arg4)) shapeCasts_S1024_S1x1024 := by
    after_results; rfl
  have e0 : StableHlo.after hostOps0 (W0 m ρ c) (Proc.devRef .tc main_arg4) = W0 m ρ c (Proc.devRef .tc main_arg4) := by
    after_results
  have e2 : W2 m ρ c (Proc.devRef .tc main_arg4) = m ((c : Thread nD τ).loc main_arg4) :=
    (W2_of_ne m ρ c main_arg4 (by decide)).trans e0
  rw [← e2]; exact e1

/-! ## What the second kernel leaves, and the result -/

theorem leave1 (c : Dev nD) :
    W4 m ρ c (Proc.devRef .tc main_v8) = projArr (V3 m ρ c main_v6) (V3 m ρ c main_arg3) (V3 m ρ c main_v7) :=
  (W4_arr m ρ c 3).trans (arr1 (V3 m ρ) c)

/-- The result buffer after the run is `result` of the arguments as launched. -/
theorem result_eq (c : Dev nD) :
    W5 m ρ c (Proc.devRef .tc main_v9)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have e : StableHlo.after hostOps2 (W4 m ρ c) (Proc.devRef .tc main_v9)
      = shapeCast S8x4096x1024 (W4 m ρ c (Proc.devRef .tc main_v8)) shapeCasts_S32768x1024_S8x4096x1024 := by
    after_results; rfl
  refine e.trans ?_
  rw [leave1, enter1_rows, enter1_weights, enter1_bias, leave0, enter0_tokens, enter0_weights, enter0_bias]
  rfl

end Cert.KernelIdeal.KValue

end
-- ==== Proof.KRelay.lean ====
/-
  The kernel program's layout steps read at an entry. Row `4096 b + n` of the flat token array is token `(b, n)`; a
  one-row bias matrix at column `o` is the bias at `o`; the result at `(b, n, o)` is the flat result at row
  `4096 b + n`; and the host's re-layout between the kernels holds at row `r`, column `c` the entry of the attention
  output whose flat position with heads in front of tokens is the same number as `1024 r + c`.
-/
import proofs.«169579_j23837068493215_1_alg».proof.Proof.KGlue
import Idealize.ShloMosaic.Lib.ValueIdx
import Idealize.ShloMosaic.Lib.Pipeline.Value
import Idealize.ShloMosaic.Lib.ValueLayout

noncomputable section

namespace Cert.KernelIdeal.Arr

open Idealize.ShloMosaic Idealize.ShloMosaic.ValueIdx Cert.KernelIdeal Cert.KernelIdeal.Gen Cert.HeadAttn

theorem tokens_apply (a0 : FVec Ideal S8x4096x1024 .f32) (b : Fin 8) (n : Fin 4096) (c : Fin 1024) (r : Fin 32768)
    (hr : r.val = b.val * 4096 + n.val) :
    shapeCast S32768x1024 a0 shapeCasts_S8x4096x1024_S32768x1024 (ix2 r c) = a0 (ix3 b n c) := by
  -- both entries sit at row-major position `(4096 b + n) 1024 + c`
  exact shapeCast_apply a0 shapeCasts_S8x4096x1024_S32768x1024 (ix2 r c) (ix3 b n c) (by
    rw [Shape.rowMajor_val_three, Shape.rowMajor_val_two]
    show (b.val * 4096 + n.val) * 1024 + c.val = r.val * 1024 + c.val
    rw [hr])

theorem bias3072_apply (a2 : FVec Ideal S3072 .f32) (o : Fin 3072) :
    shapeCast S1x3072 a2 shapeCasts_S3072_S1x3072 (ix2 (0 : Fin 1) o) = a2 (ix1 o) := by
  -- position `0 · 3072 + o = o`
  exact shapeCast_apply a2 shapeCasts_S3072_S1x3072 (ix2 (0 : Fin 1) o) (ix1 o) (by
    rw [Shape.rowMajor_val_one, Shape.rowMajor_val_two]
    show o.val = 0 * 3072 + o.val
    omega)

theorem bias1024_apply (a4 : FVec Ideal S1024 .f32) (o : Fin 1024) :
    shapeCast S1x1024 a4 shapeCasts_S1024_S1x1024 (ix2 (0 : Fin 1) o) = a4 (ix1 o) := by
  -- position `0 · 1024 + o = o`
  exact shapeCast_apply a4 shapeCasts_S1024_S1x1024 (ix2 (0 : Fin 1) o) (ix1 o) (by
    rw [Shape.rowMajor_val_one, Shape.rowMajor_val_two]
    show o.val = 0 * 1024 + o.val
    omega)

theorem unflat_apply (R : FVec Ideal S32768x1024 .f32) (b : Fin 8) (n : Fin 4096) (o : Fin 1024) (r : Fin 32768)
    (hr : r.val = b.val * 4096 + n.val) :
    shapeCast S8x4096x1024 R shapeCasts_S32768x1024_S8x4096x1024 (ix3 b n o) = R (ix2 r o) := by
  -- both entries sit at row-major position `(4096 b + n) 1024 + o`
  exact shapeCast_apply R shapeCasts_S32768x1024_S8x4096x1024 (ix3 b n o) (ix2 r o) (by
    rw [Shape.rowMajor_val_two, Shape.rowMajor_val_three]
    show r.val * 1024 + o.val = (b.val * 4096 + n.val) * 1024 + o.val
    rw [hr])

theorem relay_apply (A : FVec Ideal S32768x1024 .bf16) (r : Fin 32768) (c : Fin 1024)
    (b' : Fin 8) (n' : Fin 4096) (h' : Fin 16) (d' : Fin 64) (r' : Fin 32768) (c' : Fin 1024)
    (hflat : r.val * 1024 + c.val = ((b'.val * 16 + h'.val) * 4096 + n'.val) * 64 + d'.val)
    (hr' : r'.val = b'.val * 4096 + n'.val) (hc' : c'.val = h'.val * 64 + d'.val) :
    relay A (ix2 r c) = A (ix2 r' c') := by
  have hrlt := r.isLt
  unfold relay
  -- row `r` of the flat array is the pair `(r / 4096, r % 4096)`: position `((r / 4096) 4096 + r % 4096) 1024 + c`
  refine (shapeCast_apply _ shapeCasts_S8x4096x1024_S32768x1024 (ix2 r c)
    (ix3 (⟨r.val / 4096, by omega⟩ : Fin 8) (⟨r.val % 4096, by omega⟩ : Fin 4096) c) (by
      rw [Shape.rowMajor_val_three, Shape.rowMajor_val_two]
      show (r.val / 4096 * 4096 + r.val % 4096) * 1024 + c.val = r.val * 1024 + c.val
      omega)).trans ?_
  -- that position is `1024 r + c`, which is the position of `(b', h', n', d')` with heads in front of tokens
  refine (shapeCast_apply _ shapeCasts_S8x16x4096x64_S8x4096x1024 _ (ix4 b' h' n' d') (by
      rw [Shape.rowMajor_val_four, Shape.rowMajor_val_three]
      show ((b'.val * 16 + h'.val) * 4096 + n'.val) * 64 + d'.val
        = (r.val / 4096 * 4096 + r.val % 4096) * 1024 + c.val
      omega)).trans ?_
  -- the exchange of the two middle axes
  refine (transpose_apply [0, 2, 1, 3] _ transposes_S8x4096x16x64_S8x16x4096x64_0_2_1_3 (ix4 b' h' n' d')
    (ix4 b' n' h' d') (fun a => match a with
      | ⟨0, _⟩ => rfl
      | ⟨1, _⟩ => rfl
      | ⟨2, _⟩ => rfl
      | ⟨3, _⟩ => rfl)).trans ?_
  -- tokens in front of heads: position `((4096 b' + n') 16 + h') 64 + d' = 1024 r' + c'`
  exact shapeCast_apply A shapeCasts_S32768x1024_S8x4096x16x64 (ix4 b' n' h' d') (ix2 r' c') (by
    rw [Shape.rowMajor_val_two, Shape.rowMajor_val_four]
    show r'.val * 1024 + c'.val = ((b'.val * 4096 + n'.val) * 16 + h'.val) * 64 + d'.val
    omega)

end Cert.KernelIdeal.Arr

end
-- ==== Proof.RTypes.lean ====
/-
  Names for the types of the reference's five argument arrays at the extended reals.
-/
import proofs.«169579_j23837068493215_1_alg».proof.Proof.Gen.ReferenceIdeal
import Idealize.ShloMosaic.PureOps.Ideal

namespace Cert.ReferenceIdeal.RefVal

open Idealize.ShloMosaic Cert.ReferenceIdeal

/-- The tokens, 8 by 4096 by 1024. -/
abbrev A0 : Type := (⟨S8x4096x1024, .f32⟩ : BufTy).Contents (Elt Ideal)
/-- The fused weights, 3072 by 1024. -/
abbrev A1 : Type := (⟨S3072x1024, .f32⟩ : BufTy).Contents (Elt Ideal)
/-- The fused bias, 3072. -/
abbrev A2 : Type := (⟨S3072, .f32⟩ : BufTy).Contents (Elt Ideal)
/-- The output weights, 1024 by 1024. -/
abbrev A3 : Type := (⟨S1024x1024, .f32⟩ : BufTy).Contents (Elt Ideal)
/-- The output bias, 1024. -/
abbrev A4 : Type := (⟨S1024, .f32⟩ : BufTy).Contents (Elt Ideal)

end Cert.ReferenceIdeal.RefVal
-- ==== Proof.RFused.lean ====
/-
  The reference's fused projection and its three thirds, read at an entry: token `(b, n)` against weight row `o` plus
  the bias at `o`; and entry `d` of head `h` of each third is the fused row's entry at the third's start plus `64 h + d`.
-/
import proofs.«169579_j23837068493215_1_alg».proof.Proof.Gen.ReferenceIdeal.Read
import proofs.«169579_j23837068493215_1_alg».proof.Proof.HeadSpec
import proofs.«169579_j23837068493215_1_alg».proof.Proof.RTypes
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefVal

open Idealize.ShloMosaic Idealize.ShloMosaic.ValueIdx Cert.ReferenceIdeal Cert.ReferenceIdeal.Gen Cert.ReferenceIdeal.Read Cert.HeadAttn

theorem v3_apply (x0 : A0) (x1 : A1) (x2 : A2) (b : Fin 8) (n : Fin 4096) (o : Fin 3072) :
    val_main_v3 (F := Ideal) x0 x1 x2 (ix3 b n o)
      = lin (fun c : Fin 1024 => x0 (ix3 b n c)) (fun (o' : Fin 3072) (c : Fin 1024) => x1 (ix2 o' c))
          (fun o' : Fin 3072 => x2 (ix1 o')) o := by
  rw [val_main_v3_apply, val_main_v0_apply, val_main_v2_apply, val_main_v1_apply]
  unfold lin
  -- the contraction reads the token's row at `(b, n, k)` and the weights at `(o, k)`
  have e1 : ∀ k : Fin 1024, lidx_main_v0 (ix3 b n o) k = ix3 b n k := fun k => funext fun a => Fin.ext (by
    match a with
    | ⟨0, _⟩ => rfl
    | ⟨1, _⟩ => rfl
    | ⟨2, _⟩ => rfl)
  have e2 : ∀ k : Fin 1024, ridx_main_v0 (ix3 b n o) k = ix2 o k := fun k => funext fun a => Fin.ext (by
    match a with
    | ⟨0, _⟩ => rfl
    | ⟨1, _⟩ => rfl)
  -- the two broadcasts of the bias read it at `o`
  have e3 : idx_main_v1 (idx_main_v2 (ix3 b n o)) = ix1 o := funext fun a => Fin.ext (by
    match a with
    | ⟨0, _⟩ => rfl)
  rw [e3]
  simp only [e1, e2]
  rfl

/-- The reshape of `[8,4096,3072]` to `[8,4096,3,16,64]` read at `(b, n, s, h, d)`: the flat position
    `(((b·4096 + n)·3 + s)·16 + h)·64 + d` is `(b·4096 + n)·3072 + (1024 s + 64 h + d)`, and `1024 s + 64 h + d < 3072`. -/
theorem idx_v4_ix5 (b : Fin 8) (n : Fin 4096) (s : Fin 3) (h : Fin 16) (d : Fin 64) :
    idx_main_v4 (ix5 b n s h d)
      = ix3 b n (⟨s.val * 1024 + (h.val * 64 + d.val), by have := s.isLt; have := h.isLt; have := d.isLt; omega⟩ : Fin 3072) :=
  funext fun a => Fin.ext (by
  have hb := b.isLt; have hn := n.isLt; have hs := s.isLt; have hh := h.isLt; have hd := d.isLt
  match a with
  | ⟨0, _⟩ => show ((((b.val * 4096 + n.val) * 3 + s.val) * 16 + h.val) * 64 + d.val) / 12582912 = b.val; omega
  | ⟨1, _⟩ => show ((((b.val * 4096 + n.val) * 3 + s.val) * 16 + h.val) * 64 + d.val) / 3072 % 4096 = n.val; omega
  | ⟨2, _⟩ => show ((((b.val * 4096 + n.val) * 3 + s.val) * 16 + h.val) * 64 + d.val) % 3072 = s.val * 1024 + (h.val * 64 + d.val); omega)

/-- The reshape of `[8,4096,1,16,64]` to `[8,4096,16,64]` read at `(b, n, h, d)`: the flat position `((b·4096 + n)·16 + h)·64 + d`
    splits back into the same four coordinates with a zero in the unit axis. -/
theorem idx_v6_ix4 (b : Fin 8) (n : Fin 4096) (h : Fin 16) (d : Fin 64) :
    idx_main_v6 (ix4 b n h d) = ix5 b n (0 : Fin 1) h d := funext fun a => Fin.ext (by
  have hb := b.isLt; have hn := n.isLt; have hh := h.isLt; have hd := d.isLt
  match a with
  | ⟨0, _⟩ => show (((b.val * 4096 + n.val) * 16 + h.val) * 64 + d.val) / 4194304 = b.val; omega
  | ⟨1, _⟩ => show (((b.val * 4096 + n.val) * 16 + h.val) * 64 + d.val) / 1024 % 4096 = n.val; omega
  | ⟨2, _⟩ => rfl
  | ⟨3, _⟩ => show (((b.val * 4096 + n.val) * 16 + h.val) * 64 + d.val) / 64 % 16 = h.val; omega
  | ⟨4, _⟩ => show (((b.val * 4096 + n.val) * 16 + h.val) * 64 + d.val) % 64 = d.val; omega)

/-- The reshape of `[8,4096,1,16,64]` to `[8,4096,16,64]` read at `(b, n, h, d)`: the flat position `((b·4096 + n)·16 + h)·64 + d`
    splits back into the same four coordinates with a zero in the unit axis. -/
theorem idx_v8_ix4 (b : Fin 8) (n : Fin 4096) (h : Fin 16) (d : Fin 64) :
    idx_main_v8 (ix4 b n h d) = ix5 b n (0 : Fin 1) h d := funext fun a => Fin.ext (by
  have hb := b.isLt; have hn := n.isLt; have hh := h.isLt; have hd := d.isLt
  match a with
  | ⟨0, _⟩ => show (((b.val * 4096 + n.val) * 16 + h.val) * 64 + d.val) / 4194304 = b.val; omega
  | ⟨1, _⟩ => show (((b.val * 4096 + n.val) * 16 + h.val) * 64 + d.val) / 1024 % 4096 = n.val; omega
  | ⟨2, _⟩ => rfl
  | ⟨3, _⟩ => show (((b.val * 4096 + n.val) * 16 + h.val) * 64 + d.val) / 64 % 16 = h.val; omega
  | ⟨4, _⟩ => show (((b.val * 4096 + n.val) * 16 + h.val) * 64 + d.val) % 64 = d.val; omega)

/-- The reshape of `[8,4096,1,16,64]` to `[8,4096,16,64]` read at `(b, n, h, d)`: the flat position `((b·4096 + n)·16 + h)·64 + d`
    splits back into the same four coordinates with a zero in the unit axis. -/
theorem idx_v10_ix4 (b : Fin 8) (n : Fin 4096) (h : Fin 16) (d : Fin 64) :
    idx_main_v10 (ix4 b n h d) = ix5 b n (0 : Fin 1) h d := funext fun a => Fin.ext (by
  have hb := b.isLt; have hn := n.isLt; have hh := h.isLt; have hd := d.isLt
  match a with
  | ⟨0, _⟩ => show (((b.val * 4096 + n.val) * 16 + h.val) * 64 + d.val) / 4194304 = b.val; omega
  | ⟨1, _⟩ => show (((b.val * 4096 + n.val) * 16 + h.val) * 64 + d.val) / 1024 % 4096 = n.val; omega
  | ⟨2, _⟩ => rfl
  | ⟨3, _⟩ => show (((b.val * 4096 + n.val) * 16 + h.val) * 64 + d.val) / 64 % 16 = h.val; omega
  | ⟨4, _⟩ => show (((b.val * 4096 + n.val) * 16 + h.val) * 64 + d.val) % 64 = d.val; omega)

/-- The unit slice at position 0 of the axis of size 3, read at `(b, n, 0, h, d)`, reads the source at `(b, n, 0, h, d)`. -/
theorem idx_v5_ix5 (b : Fin 8) (n : Fin 4096) (h : Fin 16) (d : Fin 64) :
    idx_main_v5 (ix5 b n (0 : Fin 1) h d) = ix5 b n (0 : Fin 3) h d := funext fun a => Fin.ext (by
  match a with
  | ⟨0, _⟩ => rfl
  | ⟨1, _⟩ => rfl
  | ⟨2, _⟩ => rfl
  | ⟨3, _⟩ => rfl
  | ⟨4, _⟩ => rfl)

/-- The unit slice at position 1 of the axis of size 3, read at `(b, n, 0, h, d)`, reads the source at `(b, n, 1, h, d)`. -/
theorem idx_v7_ix5 (b : Fin 8) (n : Fin 4096) (h : Fin 16) (d : Fin 64) :
    idx_main_v7 (ix5 b n (0 : Fin 1) h d) = ix5 b n (1 : Fin 3) h d := funext fun a => Fin.ext (by
  match a with
  | ⟨0, _⟩ => rfl
  | ⟨1, _⟩ => rfl
  | ⟨2, _⟩ => rfl
  | ⟨3, _⟩ => rfl
  | ⟨4, _⟩ => rfl)

/-- The unit slice at position 2 of the axis of size 3, read at `(b, n, 0, h, d)`, reads the source at `(b, n, 2, h, d)`. -/
theorem idx_v9_ix5 (b : Fin 8) (n : Fin 4096) (h : Fin 16) (d : Fin 64) :
    idx_main_v9 (ix5 b n (0 : Fin 1) h d) = ix5 b n (2 : Fin 3) h d := funext fun a => Fin.ext (by
  match a with
  | ⟨0, _⟩ => rfl
  | ⟨1, _⟩ => rfl
  | ⟨2, _⟩ => rfl
  | ⟨3, _⟩ => rfl
  | ⟨4, _⟩ => rfl)

theorem v6_apply (x0 : A0) (x1 : A1) (x2 : A2) (b : Fin 8) (n : Fin 4096) (h : Fin 16) (d : Fin 64) :
    val_main_v6 (F := Ideal) x0 x1 x2 (ix4 b n h d)
      = qry (fun o : Fin 3072 => val_main_v3 (F := Ideal) x0 x1 x2 (ix3 b n o)) h d := by
  rw [val_main_v6_apply, val_main_v5_apply, val_main_v4_apply, idx_v6_ix4, idx_v5_ix5, idx_v4_ix5]
  unfold qry part
  refine congrArg (fun o : Fin 3072 => val_main_v3 (F := Ideal) x0 x1 x2 (ix3 b n o)) (Fin.ext ?_)
  have e : ((0 : Fin 3) : Nat) = 0 := rfl
  show ((0 : Fin 3) : Nat) * 1024 + (h.val * 64 + d.val) = 0 + (h.val * 64 + d.val)
  rw [e]

theorem v8_apply (x0 : A0) (x1 : A1) (x2 : A2) (b : Fin 8) (n : Fin 4096) (h : Fin 16) (d : Fin 64) :
    val_main_v8 (F := Ideal) x0 x1 x2 (ix4 b n h d)
      = key (fun o : Fin 3072 => val_main_v3 (F := Ideal) x0 x1 x2 (ix3 b n o)) h d := by
  rw [val_main_v8_apply, val_main_v7_apply, val_main_v4_apply, idx_v8_ix4, idx_v7_ix5, idx_v4_ix5]
  unfold key part
  refine congrArg (fun o : Fin 3072 => val_main_v3 (F := Ideal) x0 x1 x2 (ix3 b n o)) (Fin.ext ?_)
  have e : ((1 : Fin 3) : Nat) = 1 := rfl
  show ((1 : Fin 3) : Nat) * 1024 + (h.val * 64 + d.val) = 1024 + (h.val * 64 + d.val)
  rw [e]

theorem v10_apply (x0 : A0) (x1 : A1) (x2 : A2) (b : Fin 8) (n : Fin 4096) (h : Fin 16) (d : Fin 64) :
    val_main_v10 (F := Ideal) x0 x1 x2 (ix4 b n h d)
      = vlu (fun o : Fin 3072 => val_main_v3 (F := Ideal) x0 x1 x2 (ix3 b n o)) h d := by
  rw [val_main_v10_apply, val_main_v9_apply, val_main_v4_apply, idx_v10_ix4, idx_v9_ix5, idx_v4_ix5]
  unfold vlu part
  refine congrArg (fun o : Fin 3072 => val_main_v3 (F := Ideal) x0 x1 x2 (ix3 b n o)) (Fin.ext ?_)
  have e : ((2 : Fin 3) : Nat) = 2 := rfl
  show ((2 : Fin 3) : Nat) * 1024 + (h.val * 64 + d.val) = 2048 + (h.val * 64 + d.val)
  rw [e]

end Cert.ReferenceIdeal.RefVal

end
-- ==== Proof.RScores.lean ====
/-
  The reference's scores, their row softmax and the blend, read at an entry of token `(b, n)`.
-/
import proofs.«169579_j23837068493215_1_alg».proof.Proof.Gen.ReferenceIdeal.Read
import proofs.«169579_j23837068493215_1_alg».proof.Proof.HeadSpec
import proofs.«169579_j23837068493215_1_alg».proof.Proof.RTypes
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefVal

open Idealize.ShloMosaic Idealize.ShloMosaic.ValueIdx Cert.ReferenceIdeal Cert.ReferenceIdeal.Gen Cert.ReferenceIdeal.Read Cert.HeadAttn

/-- The score product's left index at entry `(b, n, h, g)` and contraction coordinate `k` is `(b, n, h, k)`. -/
private theorem lidx11 (b : Fin 8) (n : Fin 4096) (h g : Fin 16) (k : Fin 64) :
    lidx_main_v11 (ix4 b n h g) k = ix4 b n h k := by
  funext a
  match a with
  | ⟨0, _⟩ => rfl
  | ⟨1, _⟩ => rfl
  | ⟨2, _⟩ => rfl
  | ⟨3, _⟩ => rfl

/-- Its right index is `(b, n, g, k)`. -/
private theorem ridx11 (b : Fin 8) (n : Fin 4096) (h g : Fin 16) (k : Fin 64) :
    ridx_main_v11 (ix4 b n h g) k = ix4 b n g k := by
  funext a
  match a with
  | ⟨0, _⟩ => rfl
  | ⟨1, _⟩ => rfl
  | ⟨2, _⟩ => rfl
  | ⟨3, _⟩ => rfl

theorem v13_apply (x0 : A0) (x1 : A1) (x2 : A2) (b : Fin 8) (n : Fin 4096) (h g : Fin 16) :
    val_main_v13 (F := Ideal) x0 x1 x2 (ix4 b n h g)
      = (∑ d : Fin 64, val_main_v6 (F := Ideal) x0 x1 x2 (ix4 b n h d) * val_main_v8 (F := Ideal) x0 x1 x2 (ix4 b n g d)) * scl := by
  rw [val_main_v13_apply, val_main_v11_apply, val_main_v12_apply, val_main_cst_apply]
  show (∑ k : Fin 64, _ * _) * Ideal.ofBits .f32 0x3D000000#32 = _
  refine congrArg (· * _) (Finset.sum_congr rfl fun k _ => ?_)
  rw [lidx11, ridx11]

/-- The row maximum: the fold of `max` from minus infinity over the last axis of the scores. -/
private theorem v14_apply (x0 : A0) (x1 : A1) (x2 : A2) (b : Fin 8) (n : Fin 4096) (h : Fin 16) :
    val_main_v14 (F := Ideal) x0 x1 x2 (ix3 b n h)
      = (Finset.univ : Finset (Fin 16)).fold max ninf (fun g' : Fin 16 => val_main_v13 (F := Ideal) x0 x1 x2 (ix4 b n h g')) := by
  unfold val_main_v14
  generalize val_main_v13 (F := Ideal) x0 x1 x2 = y
  refine (Host.reduce_eq_fold_single (FloatOps.maximumf (F := Ideal) (φ := .f32)) y (val_main_cst_0 (F := Ideal))
    reducesTo_S8x4096x16x16_S8x4096x16_d3 (by decide : S8x4096x16x16.Reduces [3] S8x4096x16) h_S_ (ix3 b n h)).trans ?_
  refine Finset.fold_congr fun k _ => ?_
  exact congrArg y (funext fun a => Fin.ext (by
    match a with
    | ⟨0, _⟩ => rfl
    | ⟨1, _⟩ => rfl
    | ⟨2, _⟩ => rfl
    | ⟨3, _⟩ => rfl))

/-- The maximum once more against minus infinity. -/
private theorem v16_at (x0 : A0) (x1 : A1) (x2 : A2) (b : Fin 8) (n : Fin 4096) (h : Fin 16) :
    val_main_v16 (F := Ideal) x0 x1 x2 (ix3 b n h)
      = max ninf ((Finset.univ : Finset (Fin 16)).fold max ninf (fun g' : Fin 16 => val_main_v13 (F := Ideal) x0 x1 x2 (ix4 b n h g'))) := by
  rw [val_main_v16_apply, val_main_v15_apply, val_main_cst_1_apply, v14_apply]
  rfl

/-- The index the two broadcasts along the last axis read: `(b, n, h, g)` reads `(b, n, h)`. -/
private theorem idx17_18 (b : Fin 8) (n : Fin 4096) (h g : Fin 16) :
    idx_main_v17 (idx_main_v18 (ix4 b n h g)) = ix3 b n h := by
  funext a
  match a with
  | ⟨0, _⟩ => rfl
  | ⟨1, _⟩ => rfl
  | ⟨2, _⟩ => rfl

private theorem idx22_23 (b : Fin 8) (n : Fin 4096) (h g : Fin 16) :
    idx_main_v22 (idx_main_v23 (ix4 b n h g)) = ix3 b n h := by
  funext a
  match a with
  | ⟨0, _⟩ => rfl
  | ⟨1, _⟩ => rfl
  | ⟨2, _⟩ => rfl

/-- The index the row sum reads at coordinate `k`: `(b, n, h)` reads `(b, n, h, k)`. -/
private theorem idx21 (b : Fin 8) (n : Fin 4096) (h : Fin 16) (k : Fin 16) :
    idx_main_v21 (ix3 b n h) k = ix4 b n h k := by
  funext a
  match a with
  | ⟨0, _⟩ => rfl
  | ⟨1, _⟩ => rfl
  | ⟨2, _⟩ => rfl
  | ⟨3, _⟩ => rfl

/-- The exponential of a score less its row's maximum. -/
private theorem v20_at (x0 : A0) (x1 : A1) (x2 : A2) (b : Fin 8) (n : Fin 4096) (h g : Fin 16) :
    val_main_v20 (F := Ideal) x0 x1 x2 (ix4 b n h g)
      = Ideal.exp (val_main_v13 (F := Ideal) x0 x1 x2 (ix4 b n h g)
          - max ninf ((Finset.univ : Finset (Fin 16)).fold max ninf (fun g' : Fin 16 => val_main_v13 (F := Ideal) x0 x1 x2 (ix4 b n h g')))) := by
  rw [val_main_v20_apply, val_main_v19_apply, val_main_v18_apply, val_main_v17_apply, idx17_18, v16_at]
  rfl

/-- The row's sum of exponentials. -/
private theorem v21_at (x0 : A0) (x1 : A1) (x2 : A2) (b : Fin 8) (n : Fin 4096) (h : Fin 16) :
    val_main_v21 (F := Ideal) x0 x1 x2 (ix3 b n h)
      = ∑ g' : Fin 16, val_main_v20 (F := Ideal) x0 x1 x2 (ix4 b n h g') := by
  rw [val_main_v21_apply, val_main_cst_2_apply, Ideal.ofBits_def, Ideal.ofBits_zero_f32, zero_add]
  refine Finset.sum_congr rfl fun k _ => ?_
  rw [idx21]

theorem v24_apply (x0 : A0) (x1 : A1) (x2 : A2) (b : Fin 8) (n : Fin 4096) (h g : Fin 16) :
    val_main_v24 (F := Ideal) x0 x1 x2 (ix4 b n h g)
      = soft (fun g' : Fin 16 => val_main_v13 (F := Ideal) x0 x1 x2 (ix4 b n h g')) g := by
  rw [val_main_v24_apply, val_main_v23_apply, val_main_v22_apply, idx22_23, v21_at, v20_at, Ideal.hostDivf_def]
  unfold soft
  refine congrArg (Ideal.div _) (Finset.sum_congr rfl fun k _ => ?_)
  rw [v20_at]

/-- The blend's left index at entry `(b, n, h, d)` and contraction coordinate `k` is `(b, n, h, k)`. -/
private theorem lidx25 (b : Fin 8) (n : Fin 4096) (h : Fin 16) (d : Fin 64) (k : Fin 16) :
    lidx_main_v25 (ix4 b n h d) k = ix4 b n h k := by
  funext a
  match a with
  | ⟨0, _⟩ => rfl
  | ⟨1, _⟩ => rfl
  | ⟨2, _⟩ => rfl
  | ⟨3, _⟩ => rfl

/-- Its right index is `(b, n, k, d)`. -/
private theorem ridx25 (b : Fin 8) (n : Fin 4096) (h : Fin 16) (d : Fin 64) (k : Fin 16) :
    ridx_main_v25 (ix4 b n h d) k = ix4 b n k d := by
  funext a
  match a with
  | ⟨0, _⟩ => rfl
  | ⟨1, _⟩ => rfl
  | ⟨2, _⟩ => rfl
  | ⟨3, _⟩ => rfl

theorem v25_apply (x0 : A0) (x1 : A1) (x2 : A2) (b : Fin 8) (n : Fin 4096) (h : Fin 16) (d : Fin 64) :
    val_main_v25 (F := Ideal) x0 x1 x2 (ix4 b n h d)
      = ∑ g : Fin 16, val_main_v24 (F := Ideal) x0 x1 x2 (ix4 b n h g) * val_main_v10 (F := Ideal) x0 x1 x2 (ix4 b n g d) := by
  rw [val_main_v25_apply]
  refine Finset.sum_congr rfl fun k _ => ?_
  rw [lidx25, ridx25]

end Cert.ReferenceIdeal.RefVal

end
-- ==== Proof.RMix.lean ====
/-
  The reference's attention output at token `(b, n)`, head `h`, entry `d`, in terms of the per-token mathematics.
-/
import proofs.«169579_j23837068493215_1_alg».proof.Proof.RFused
import proofs.«169579_j23837068493215_1_alg».proof.Proof.RScores

noncomputable section

namespace Cert.ReferenceIdeal.RefVal

open Idealize.ShloMosaic Idealize.ShloMosaic.ValueIdx Cert.ReferenceIdeal Cert.ReferenceIdeal.Gen Cert.ReferenceIdeal.Read Cert.HeadAttn

theorem v25_mix (x0 : A0) (x1 : A1) (x2 : A2) (b : Fin 8) (n : Fin 4096) (h : Fin 16) (d : Fin 64) :
    val_main_v25 (F := Ideal) x0 x1 x2 (ix4 b n h d)
      = mix (fun o : Fin 3072 => lin (fun c : Fin 1024 => x0 (ix3 b n c)) (fun (o' : Fin 3072) (c : Fin 1024) => x1 (ix2 o' c))
          (fun o' : Fin 3072 => x2 (ix1 o')) o) h d := by
  -- the token's fused row
  have hu : (fun o : Fin 3072 => val_main_v3 (F := Ideal) x0 x1 x2 (ix3 b n o))
      = (fun o : Fin 3072 => lin (fun c : Fin 1024 => x0 (ix3 b n c)) (fun (o' : Fin 3072) (c : Fin 1024) => x1 (ix2 o' c))
          (fun o' : Fin 3072 => x2 (ix1 o')) o) :=
    funext fun o => v3_apply x0 x1 x2 b n o
  -- the scores at this token are the token's scores
  have hl : ∀ g' : Fin 16, val_main_v13 (F := Ideal) x0 x1 x2 (ix4 b n h g')
      = logit (fun o : Fin 3072 => val_main_v3 (F := Ideal) x0 x1 x2 (ix3 b n o)) h g' := fun g' => by
    rw [v13_apply]; unfold logit
    simp only [v6_apply, v8_apply]
  rw [v25_apply]
  unfold mix prob
  refine Finset.sum_congr rfl fun g _ => ?_
  rw [v24_apply, v10_apply]
  simp only [hl, hu]

end Cert.ReferenceIdeal.RefVal

end
-- ==== Proof.RTail.lean ====
/-
  The reference's tail read at an entry. The attention output, heads moved in front of tokens and the array laid out
  flat again as 8 by 4096 by 1024, holds at `(b, n, c)` the attention output whose flat position with heads in front
  is the same number; and the result is that array's row `(b, n)` against weight row `o` plus the bias at `o`.
-/
import proofs.«169579_j23837068493215_1_alg».proof.Proof.Gen.ReferenceIdeal.Read
import proofs.«169579_j23837068493215_1_alg».proof.Proof.HeadSpec
import proofs.«169579_j23837068493215_1_alg».proof.Proof.RTypes
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefVal

open Idealize.ShloMosaic Idealize.ShloMosaic.ValueIdx Cert.ReferenceIdeal Cert.ReferenceIdeal.Gen Cert.ReferenceIdeal.Read Cert.HeadAttn

theorem v27_apply (x0 : A0) (x1 : A1) (x2 : A2) (b : Fin 8) (n : Fin 4096) (c : Fin 1024)
    (b' : Fin 8) (n' : Fin 4096) (h' : Fin 16) (d' : Fin 64)
    (hflat : (b.val * 4096 + n.val) * 1024 + c.val = ((b'.val * 16 + h'.val) * 4096 + n'.val) * 64 + d'.val) :
    val_main_v27 (F := Ideal) x0 x1 x2 (ix3 b n c) = val_main_v25 (F := Ideal) x0 x1 x2 (ix4 b' n' h' d') := by
  -- the reshape reads the transposed array at the quotients and remainders of the flat position, and the
  -- transpose swaps the two middle coordinates; the flat position decomposes uniquely in the mixed radix
  rw [val_main_v27_apply, val_main_v26_apply]
  have hb := b'.isLt
  have hn := n'.isLt
  have hh := h'.isLt
  have hd := d'.isLt
  refine congrArg _ (funext fun a => Fin.ext ?_)
  match a with
  | ⟨0, _⟩ =>
    show ((b.val * 4096 + n.val) * 1024 + c.val) / 4194304 = b'.val
    omega
  | ⟨1, _⟩ =>
    show ((b.val * 4096 + n.val) * 1024 + c.val) / 64 % 4096 = n'.val
    omega
  | ⟨2, _⟩ =>
    show ((b.val * 4096 + n.val) * 1024 + c.val) / 262144 % 16 = h'.val
    omega
  | ⟨3, _⟩ =>
    show ((b.val * 4096 + n.val) * 1024 + c.val) % 64 = d'.val
    omega

theorem v31_apply (x0 : A0) (x1 : A1) (x2 : A2) (x3 : A3) (x4 : A4) (b : Fin 8) (n : Fin 4096) (o : Fin 1024) :
    val_main_v31 (F := Ideal) x0 x1 x2 x3 x4 (ix3 b n o)
      = lin (fun c : Fin 1024 => val_main_v27 (F := Ideal) x0 x1 x2 (ix3 b n c)) (fun (o' : Fin 1024) (c : Fin 1024) => x3 (ix2 o' c))
          (fun o' : Fin 1024 => x4 (ix1 o')) o := by
  -- the sum of the contraction plus the bias, each operand read at the index the coordinates name
  rw [val_main_v31_apply, val_main_v28_apply, val_main_v30_apply, val_main_v29_apply]
  unfold lin
  rw [Ideal.addf_def]
  have e4 : idx_main_v29 (idx_main_v30 (ix3 b n o)) = ix1 o := funext fun a => Fin.ext (by
    match a with
    | ⟨0, _⟩ => rfl)
  rw [e4]
  refine congrArg (· + x4 (ix1 o)) (Finset.sum_congr rfl fun k _ => ?_)
  have el : lidx_main_v28 (ix3 b n o) k = ix3 b n k := funext fun a => Fin.ext (by
    match a with
    | ⟨0, _⟩ => rfl
    | ⟨1, _⟩ => rfl
    | ⟨2, _⟩ => rfl)
  have er : ridx_main_v28 (ix3 b n o) k = ix2 o k := funext fun a => Fin.ext (by
    match a with
    | ⟨0, _⟩ => rfl
    | ⟨1, _⟩ => rfl)
  rw [el, er]

end Cert.ReferenceIdeal.RefVal

end
-- ==== Proof.Bridge.lean ====
/-
  The two programs compute one function. At `(b, n, o)` both results are row `(b, n)` of an intermediate array against
  output weight row `o` plus the output bias at `o`. The intermediate arrays agree entry by entry: with
  `F = 1024 (4096 b + n) + c` the flat position, both hold at `(b, n, c)` the attention output of token
  `(F / 4194304, F / 64 % 4096)`, head `F / 262144 % 16`, entry `F % 64` — on the kernel's side through the host's
  re-layout of the first kernel's array, on the reference's through its transpose and reshape — and that attention
  output is the same per-token function of the same token's row, the fused weights and the fused bias.
-/
import proofs.«169579_j23837068493215_1_alg».proof.Proof.KRelay
import proofs.«169579_j23837068493215_1_alg».proof.Proof.RMix
import proofs.«169579_j23837068493215_1_alg».proof.Proof.RTail

noncomputable section

namespace Cert.Bridge

open Idealize.ShloMosaic Idealize.ShloMosaic.ValueIdx Cert.HeadAttn
open Cert.KernelIdeal.Arr Cert.ReferenceIdeal.RefVal Cert.ReferenceIdeal.Read

/-- The intermediate arrays agree: the kernel's re-laid attention output at row `4096 b + n`, column `c`, is the
    reference's at `(b, n, c)`. -/
theorem mid_eq (a0 : A0) (a1 : A1) (a2 : A2) (b : Fin 8) (n : Fin 4096) (c : Fin 1024) (r : Fin 32768)
    (hr : r.val = b.val * 4096 + n.val) :
    relay (attnArr (shapeCast Cert.KernelIdeal.S32768x1024 a0 Cert.KernelIdeal.Gen.shapeCasts_S8x4096x1024_S32768x1024) a1
        (shapeCast Cert.KernelIdeal.S1x3072 a2 Cert.KernelIdeal.Gen.shapeCasts_S3072_S1x3072)) (ix2 r c)
      = val_main_v27 (F := Ideal) a0 a1 a2 (ix3 b n c) := by
  have hb := b.isLt; have hn := n.isLt; have hc := c.isLt
  -- the flat position and its four digits
  let b' : Fin 8 := ⟨((b.val * 4096 + n.val) * 1024 + c.val) / 4194304, by omega⟩
  let h' : Fin 16 := ⟨((b.val * 4096 + n.val) * 1024 + c.val) / 262144 % 16, Nat.mod_lt _ (by decide)⟩
  let n' : Fin 4096 := ⟨((b.val * 4096 + n.val) * 1024 + c.val) / 64 % 4096, Nat.mod_lt _ (by decide)⟩
  let d' : Fin 64 := ⟨((b.val * 4096 + n.val) * 1024 + c.val) % 64, Nat.mod_lt _ (by decide)⟩
  let r' : Fin 32768 := ⟨b'.val * 4096 + n'.val, by have := b'.isLt; have := n'.isLt; omega⟩
  let c' : Fin 1024 := ⟨h'.val * 64 + d'.val, by have := h'.isLt; have := d'.isLt; omega⟩
  have hflat : (b.val * 4096 + n.val) * 1024 + c.val = ((b'.val * 16 + h'.val) * 4096 + n'.val) * 64 + d'.val := by
    show (b.val * 4096 + n.val) * 1024 + c.val
      = ((((b.val * 4096 + n.val) * 1024 + c.val) / 4194304 * 16 + ((b.val * 4096 + n.val) * 1024 + c.val) / 262144 % 16) * 4096
          + ((b.val * 4096 + n.val) * 1024 + c.val) / 64 % 4096) * 64 + ((b.val * 4096 + n.val) * 1024 + c.val) % 64
    omega
  rw [relay_apply _ r c b' n' h' d' r' c' (by rw [hr]; exact hflat) rfl rfl,
    v27_apply a0 a1 a2 b n c b' n' h' d' hflat, v25_mix]
  -- the first kernel's array at row r', column c' = 64 h' + d'
  have hh : (⟨c'.val / 64, by have := c'.isLt; omega⟩ : Fin 16) = h' :=
    Fin.ext (by show (h'.val * 64 + d'.val) / 64 = h'.val; have := d'.isLt; omega)
  have hd : (⟨c'.val % 64, Nat.mod_lt _ (by decide)⟩ : Fin 64) = d' :=
    Fin.ext (by show (h'.val * 64 + d'.val) % 64 = d'.val; have := d'.isLt; omega)
  show mix (fun o : Fin 3072 => lin (fun cc : Fin 1024 =>
        shapeCast Cert.KernelIdeal.S32768x1024 a0 Cert.KernelIdeal.Gen.shapeCasts_S8x4096x1024_S32768x1024 (ix2 r' cc))
        (fun (o' : Fin 3072) (cc : Fin 1024) => a1 (ix2 o' cc))
        (fun o' : Fin 3072 => shapeCast Cert.KernelIdeal.S1x3072 a2 Cert.KernelIdeal.Gen.shapeCasts_S3072_S1x3072 (ix2 (0 : Fin 1) o')) o)
      ⟨c'.val / 64, _⟩ ⟨c'.val % 64, _⟩ = _
  rw [hh, hd]
  simp only [tokens_apply a0 b' n' _ r' rfl, bias3072_apply]

/-- The kernel program's result is the reference's, as functions of the five argument arrays. -/
theorem result_eq_reference (a0 : A0) (a1 : A1) (a2 : A2) (a3 : A3) (a4 : A4) :
    result a0 a1 a2 a3 a4 = val_main_v31 (F := Ideal) a0 a1 a2 a3 a4 := by
  funext i
  obtain ⟨b, n, o, rfl⟩ : ∃ (b : Fin 8) (n : Fin 4096) (o : Fin 1024), i = ix3 b n o := ⟨i 0, i 1, i 2, eq_ix3 i⟩
  have hb := b.isLt; have hn := n.isLt
  let r : Fin 32768 := ⟨b.val * 4096 + n.val, by omega⟩
  rw [v31_apply]
  unfold result
  rw [unflat_apply _ b n o r rfl]
  show lin (fun c : Fin 1024 => relay _ (ix2 r c)) (fun (o' : Fin 1024) (c : Fin 1024) => a3 (ix2 o' c))
      (fun o' : Fin 1024 => shapeCast Cert.KernelIdeal.S1x1024 a4 Cert.KernelIdeal.Gen.shapeCasts_S1024_S1x1024 (ix2 (0 : Fin 1) o')) o = _
  simp only [mid_eq a0 a1 a2 b n _ r rfl, bias1024_apply]

end Cert.Bridge

end
-- ==== Proof.lean ====
/-
  The certificate of a fused-projection attention over the HEAD axis, followed by an output projection, against its
  plain reference, over the extended reals.

  Both programs compute, for each of the 8 by 4096 tokens, the fused row `x W^T + bias` (3072 entries: queries, keys,
  values, each 16 heads of 64), the scaled scores of every query head against every key head, their softmax along the
  key heads, and the weighting of the value heads; then they move the head axis in front of the token axis, lay the
  array out flat again as 8 by 4096 by 1024, and apply the output projection `· W_out^T + bias_out`. The kernel
  program does the first part in blocks of 256 tokens and the projection in blocks of 1024 rows, in a 16-bit format
  for its products' operands; over the extended reals a change of format is the identity and a block's row is the
  array's row, so the two results are one function of the five arguments, entry by entry (Proof/Bridge.lean), with
  no law beyond re-indexing the sums: the precondition is never opened.

  The three frames are the generated ones (the reference's is its generated run with the result dropped); the ideal
  pass rewrote nothing, so `preserves` is `True`; `algebraic` pairs the kernel program's run with its result
  buffer kept (Proof/RunValue.lean, read back to the arguments in Proof/KValue.lean) with the reference's generated run.
-/
import proofs.«169579_j23837068493215_1_alg».proof.Defs
import proofs.«169579_j23837068493215_1_alg».proof.Proof.Gen.Kernel
import proofs.«169579_j23837068493215_1_alg».proof.Proof.Gen.Kernel.Frame
import proofs.«169579_j23837068493215_1_alg».proof.Proof.Gen.KernelIdeal
import proofs.«169579_j23837068493215_1_alg».proof.Proof.Gen.KernelIdeal.Frame
import proofs.«169579_j23837068493215_1_alg».proof.Proof.Gen.ReferenceIdeal
import proofs.«169579_j23837068493215_1_alg».proof.Proof.Gen.ReferenceIdeal.Run
import proofs.«169579_j23837068493215_1_alg».proof.Proof.Gen.ReferenceIdeal.Read
import proofs.«169579_j23837068493215_1_alg».proof.Proof.Gen.Pre_finite_inputs
import proofs.«169579_j23837068493215_1_alg».proof.Proof.RunValue
import proofs.«169579_j23837068493215_1_alg».proof.Proof.KValue
import proofs.«169579_j23837068493215_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the five arguments both programs end with the same result array: the kernel program's
    is `result` of its arguments, the reference's is its last stage of its own, and these are one function. -/
theorem algebraic : Cert.algebraic_KernelIdeal_ReferenceIdeal := by
  intro m ρ m' ρ' _ hagree
  refine ⟨fun c => Cert.KernelIdeal.Arr.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KValue.result_eq m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v31_eq, (hagree c).1, (hagree c).2.1, (hagree c).2.2.1, (hagree c).2.2.2.1,
      (hagree c).2.2.2.2]
    exact (Cert.Bridge.result_eq_reference _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
